-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S8192x128 .f32) (main_arg1 : FVec F S2048x8192 .f32) (main_arg2 : FVec F S8192x4096 .f32) (main_arg3 : FVec F S128x128 .f32) (main_arg4 : FVec F S128x128 .f32) (main_arg5 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S8192x256 : Shape := ⟨2, ![8192, 256]⟩
abbrev S128x8192 : Shape := ⟨2, ![128, 8192]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S2048x8192, .f32⟩
  | .hbm, ⟨2, _⟩ => ⟨S8192x4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S8192x256, .f32⟩
  | .local _ .vmem, ⟨5, _⟩ => ⟨S8192x256, .f32⟩
  | .local _ .vmem, ⟨6, _⟩ => ⟨S128x8192, .f32⟩
  | .local _ .vmem, ⟨7, _⟩ => ⟨S128x8192, .f32⟩
  | .local _ .vmem, ⟨8, _⟩ => ⟨S8192x128, .f32⟩
  | .local _ .vmem, ⟨9, _⟩ => ⟨S8192x128, .bf16⟩
  | .local _ .vmem, ⟨10, _⟩ => ⟨S8192x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v15 : BitVec 1 := Scalar.cmpi .ne arg0 c15_i32
  let v16 : BitVec 32 := Scalar.extui v15
  let c0_i32_11 : BitVec 32 := 0#32
  let v17 : BitVec 1 := Scalar.cmpi .ne v16 c0_i32_11
  v17

def k0_cond3 (i : grid0.Coords) : BitVec 1 :=
  let arg0 : BitVec 32 := BitVec.ofNat 32 (i 0).val
  let c15_i32_12 : BitVec 32 := 15#32
  let v18 : BitVec 1 := Scalar.cmpi .eq arg0 c15_i32_12
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  inb_S8192x256_S8192x256_0_0 : ∀ a, (![0, 0] : Fin 2 → Nat) a + S8192x256.size a ≤ S8192x256.size a
  h_S8192x256 : 0 < S8192x256.numel
  inb_S128x8192_S128x8192_0_0 : ∀ a, (![0, 0] : Fin 2 → Nat) a + S128x8192.size a ≤ S128x8192.size a
  h_S128x8192 : 0 < S128x8192.numel
  dot_S8192x128_S128x128_S8192x128_1_0_0_1_n_n_wf : DotDims.WF S8192x128 S128x128 S8192x128 [1] [0] [0] [1] [] []
  dot_S8192x256_S8192x128_S256x128_0_0_1_1_n_n_wf : DotDims.WF S8192x256 S8192x128 S256x128 [0] [0] [1] [1] [] []
  dot_S8192x256_S256x128_S8192x128_1_0_0_1_n_n_wf : DotDims.WF S8192x256 S256x128 S8192x128 [1] [0] [0] [1] [] []
  dot_S128x8192_S8192x128_S128x128_1_0_0_1_n_n_wf : DotDims.WF S128x8192 S8192x128 S128x128 [1] [0] [0] [1] [] []
  dot_S128x8192_S128x128_S8192x128_0_0_1_1_n_n_wf : DotDims.WF S128x8192 S128x128 S8192x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x4096.size a
  hwx0_4 : ∀ i : grid0.Coords, EltTy.bits .f32 = 32 ∨ (Rect.block (s := S8192x4096) S8192x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S2048x8192.size a
  hwx0_5 : ∀ i : grid0.Coords, EltTy.bits .f32 = 32 ∨ (Rect.block (s := S2048x8192) S128x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S8192x128.size a
  hwx0_6 : ∀ i : grid0.Coords, EltTy.bits .f32 = 32 ∨ (Rect.block (s := S8192x128) S8192x128.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x256_S8192x128_S256x128_0_0_1_1_n_n : DotDims S8192x256 S8192x128 S256x128 where
  lhsContracting := [0]
  rhsContracting := [0]
  lhsNonContracting := [1]
  rhsNonContracting := [1]
  lhsBatch := []
  rhsBatch := []
  wf := dot_S8192x256_S8192x128_S256x128_0_0_1_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf
def dot_S128x8192_S128x128_S8192x128_0_0_1_1_n_n : DotDims S128x8192 S128x128 S8192x128 where
  lhsContracting := [0]
  rhsContracting := [0]
  lhsNonContracting := [1]
  rhsNonContracting := [1]
  lhsBatch := []
  rhsBatch := []
  wf := dot_S128x8192_S128x128_S8192x128_0_0_1_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8192x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S128x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8192x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S4096x8192 : Shape := ⟨2, ![4096, 8192]⟩
abbrev S4096x128 : Shape := ⟨2, ![4096, 128]⟩
abbrev S8192x2048 : Shape := ⟨2, ![8192, 2048]⟩
abbrev S2048x128 : Shape := ⟨2, ![2048, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2048x8192, .f32⟩
  | .hbm, ⟨2, _⟩ => ⟨S8192x4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S4096x8192, .f32⟩
  | .hbm, ⟨7, _⟩ => ⟨S8192x128, .f32⟩
  | .hbm, ⟨8, _⟩ => ⟨S4096x128, .f32⟩
  | .hbm, ⟨9, _⟩ => ⟨S8192x128, .f32⟩
  | .hbm, ⟨10, _⟩ => ⟨S8192x128, .f32⟩
  | .hbm, ⟨11, _⟩ => ⟨S8192x2048, .f32⟩
  | .hbm, ⟨12, _⟩ => ⟨S8192x128, .f32⟩
  | .hbm, ⟨13, _⟩ => ⟨S2048x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  transposes_S8192x4096_S4096x8192_1_0 : S8192x4096.Transposes [1, 0] S4096x8192
  transposes_S2048x8192_S8192x2048_1_0 : S2048x8192.Transposes [1, 0] S8192x2048
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []
  dot_S2048x8192_S8192x128_S2048x128_1_0_0_1_n_n_wf : DotDims.WF S2048x8192 S8192x128 S2048x128 [1] [0] [0] [1] [] []
  dot_S8192x2048_S2048x128_S8192x128_1_0_0_1_n_n_wf : DotDims.WF S8192x2048 S2048x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S2048x8192_S8192x128_S2048x128_1_0_0_1_n_n : DotDims S2048x8192 S8192x128 S2048x128 where
  lhsContracting := [1]
  rhsContracting := [0]
  lhsNonContracting := [0]
  rhsNonContracting := [1]
  lhsBatch := []
  rhsBatch := []
  wf := dot_S2048x8192_S8192x128_S2048x128_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf

class Facts : Prop extends Facts₀ where

variable [Facts]
-- ==== Proof.BodyBits.lean ====
/-
  The kernel body's three runs, at either instance.

  The body is a straight line of whole-buffer loads, matrix products and whole-buffer stores under three conditionals
  on the grid point. At the first point it forms the three small products of the edge features with the three weight
  matrices: two are stored (rounded to the narrow format) into the two scratch buffers, the third starts the output
  block. At every point it loads its column block of the triangle incidence matrix and its row block of the node
  incidence matrix, forms from each the product "block, then its transpose" applied to the matching kept product, and
  adds the two results into the output block; at the last point it also takes the maximum with zero.
  Each run below says, for one of the three ways the conditionals can go, what every buffer holds afterwards as a
  named function of what it held before: a whole-buffer store reads back as the stored value, whatever was there.
-/
import proofs.«167357_g1760936591461_cont_8to1_843_7_alg».proof.Proof.Gen.Kernel.Frame
import proofs.«167357_g1760936591461_cont_8to1_843_7_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading back a buffer the body stored whole -/

/-- The zero offsets of a rank-two rectangle, however they are spelt. -/
theorem off2_zero : (![0, 0] : Fin 2 → ℕ) = fun _ => 0 := by
  funext a; fin_cases a <;> rfl

/-- A buffer stored once, whole, reads back as the stored value, whatever it held before. -/
theorem read_stored {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- A buffer stored twice, whole each time, reads back as the later value. -/
theorem read_stored_twice {κ : Kind} {sp : Space} {S : Shape} {e : EltTy} (v : View sig κ sp S e) (f : v.ty.Contents (Elt F))
    {off : Fin S.rank → ℕ} (hz : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, View.mem_set_unit_zero hz inb y⟩),
    View.canon_cons_unit_zero hz]

/-- A whole-buffer load of a whole buffer held at `x` reads `x`. -/
theorem load_whole {sp : Space} {S : Shape} {e : EltTy} (m : Memref sig .tc sp S e) (h : m.IsWhole) (x : S.Idx → Elt F e)
    {off : Fin S.rank → ℕ} (hz : off = fun _ => 0) (inb : ∀ a, off a + S.size a ≤ S.size a) :
    View.readAt (Elt F) m.view (Rect.unit off S.size inb).toLoadRect (h.unread x) = x := by
  rw [View.readAt_eq_ld, h.read_unread, View.ld_unit_zero hz]

/-! ## The body, case by case

The three conditionals of the body depend on the grid point alone: the first point fills the two scratch buffers and
starts the accumulator, every point but the last adds its two block products to it, the last point adds them and cuts
the negative part off. -/

/-- A point that is neither first nor last: the accumulator gains the point's two block products; the scratch buffers
    are read, not written. -/
theorem run_mid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : ¬ k0_cond1 i = 1#1) (hc1 : k0_cond2 i = 1#1) (hc2 : ¬ k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (acc : Vec F S8192x128 .f32) (s0 s1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x4 s1 x5 s0 acc) ∗ owns (c : Thread nD τ) arg8 fullShare s0 ∗ owns (c : Thread nD τ) arg9 fullShare s1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [read_stored _ _ off2_zero, load_whole arg5 harg5 x4 off2_zero, load_whole arg9 harg9 s1 off2_zero,
        load_whole arg6 harg6 x5 off2_zero, load_whole arg8 harg8 s0 off2_zero, load_whole arg7 harg7 acc off2_zero]
    isplitl [HS0]
    · iexists _; isplitr; · ipureintro; exact harg8.read_unread _
      iexact HS0
    iexists _; isplitr; · ipureintro; exact harg9.read_unread _
    iexact HS1

/-- The last point: the accumulator gains the point's two block products and its negative part is cut off. -/
theorem run_last (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : ¬ k0_cond1 i = 1#1) (hc1 : ¬ k0_cond2 i = 1#1) (hc2 : k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (acc : Vec F S8192x128 .f32) (s0 s1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay8 x4 s1 x5 s0 acc) ∗ owns (c : Thread nD τ) arg8 fullShare s0 ∗ owns (c : Thread nD τ) arg9 fullShare s1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [read_stored _ _ off2_zero, load_whole arg5 harg5 x4 off2_zero, load_whole arg9 harg9 s1 off2_zero,
        load_whole arg6 harg6 x5 off2_zero, load_whole arg8 harg8 s0 off2_zero, load_whole arg7 harg7 acc off2_zero]
    isplitl [HS0]
    · iexists _; isplitr; · ipureintro; exact harg8.read_unread _
      iexact HS0
    iexists _; isplitr; · ipureintro; exact harg9.read_unread _
    iexact HS1

/-- The first point: whatever the scratch buffers and the accumulator held, the scratch buffers end at the two small
    products kept for every later point, and the accumulator at the third small product plus the point's two block
    products. -/
theorem run_first (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : k0_cond1 i = 1#1) (hc1 : k0_cond2 i = 1#1) (hc2 : ¬ k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (d6 : Vec F S8192x128 .f32) (d0 d1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d0 ∗ owns (c : Thread nD τ) arg9 fullShare d1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x4 (k0_pay3 x0 x3) x5 (k0_pay2 x0 x1) (k0_pay4 x0 x2)) ∗ owns (c : Thread nD τ) arg8 fullShare (k0_pay2 x0 x1) ∗ owns (c : Thread nD τ) arg9 fullShare (k0_pay3 x0 x3)) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_run_names
      rw [read_stored_twice _ _ off2_zero]
      simp only [View.readCov_unit_zero (S := S8192x128) _ off2_zero, load_whole (S := S8192x128) _ _ _ off2_zero, load_whole (S := S128x128) _ _ _ off2_zero, load_whole (S := S8192x256) _ _ _ off2_zero, load_whole (S := S128x8192) _ _ _ off2_zero]
    isplitl [HS0]
    · iexists _; isplitr; swap; · iexact HS0
      ipureintro
      sl_unfold_run_names
      rw [read_stored _ _ off2_zero]
      simp only [load_whole (S := S8192x128) _ _ _ off2_zero, load_whole (S := S128x128) _ _ _ off2_zero, load_whole (S := S8192x256) _ _ _ off2_zero, load_whole (S := S128x8192) _ _ _ off2_zero]
    iexists _; isplitr; swap; · iexact HS1
    ipureintro
    sl_unfold_run_names
    rw [read_stored _ _ off2_zero]
    simp only [load_whole (S := S8192x128) _ _ _ off2_zero, load_whole (S := S128x128) _ _ _ off2_zero, load_whole (S := S8192x256) _ _ _ off2_zero, load_whole (S := S128x8192) _ _ _ off2_zero]

end Cert.Kernel.Body

end
-- ==== Proof.AccumBits.lean ====
/-
  The proof data of the one pipeline and its body obligation, at either instance.

  The kernel keeps two things between grid points. Its two scratch buffers hold, from the first point on, the two
  small products it computes there once (edge features times the first and the third weight matrix, rounded to the
  narrow format); the region's invariant says so, point by point. Its output block is an accumulator: the first point
  sets it to the third small product (with the second weight matrix) plus that point's two block products, every later
  point adds its own two block products, and the last point also cuts the negative part off. What the accumulator
  holds after each point is a function of the point by recursion (`accAt`), and that is what the proof data names
  for the output window; the pipeline writes the block back once, after the last point.
-/
import proofs.«167357_g1760936591461_cont_8to1_843_7_alg».proof.Proof.BodyBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions and the windows' liveness, decided over the sixteen points -/

/-- The first conditional is taken at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second at every point but the last. -/
theorem notlast_iff : ∀ t : Fin cfg0.N, k0_cond2 (grid0.coords t) = 1#1 ↔ t.val < 15 :=
  (by decide +kernel : ∀ t : Fin grid0.N, k0_cond2 (grid0.coords t) = 1#1 ↔ t.val < 15)
/-- The third at the last point only. -/
theorem last_iff : ∀ t : Fin cfg0.N, k0_cond3 (grid0.coords t) = 1#1 ↔ t.val = 15 :=
  (by decide +kernel : ∀ t : Fin grid0.N, k0_cond3 (grid0.coords t) = 1#1 ↔ t.val = 15)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel

/-- The output window is stored into at every point (one of the last two conditionals always holds), so it is idle
    at no coordinates at all. -/
theorem live_6_all : ∀ i : grid0.Coords, cfg0.idle 6 i = false := by decide +kernel

/-! ## The staging memrefs at a point, and the two scratch buffers -/

abbrev ms_0 (t : Fin cfg0.N) : Memref sig .tc .vmem S8192x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8192x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x8192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8192x128 .f32 := win0_6.stage (cfg0.slots t 6)
abbrev hs_6 (t : Fin cfg0.N) : (ms_6 t).IsWhole := hstage0_6 ((cfg0.slots t 6).cast nbuf0_6)
abbrev sc_0 : Memref sig .tc .vmem S8192x128 .bf16 := Memref.whole cc0_scratch0
abbrev sc_1 : Memref sig .tc .vmem S8192x128 .bf16 := Memref.whole cc0_scratch1

/-- What the launch hands the region besides the windows: the two scratch buffers, each whole at some contents, and
    the generator register at some state. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-! ## The blocks, at their literal types -/

abbrev xB (c : Dev nD) (t : Fin cfg0.N) : Vec F S8192x128 .f32 := iblk m c 0 t
abbrev w0B (c : Dev nD) (t : Fin cfg0.N) : Vec F S128x128 .f32 := iblk m c 1 t
abbrev w1B (c : Dev nD) (t : Fin cfg0.N) : Vec F S128x128 .f32 := iblk m c 2 t
abbrev w2B (c : Dev nD) (t : Fin cfg0.N) : Vec F S128x128 .f32 := iblk m c 3 t
abbrev b2B (c : Dev nD) (t : Fin cfg0.N) : Vec F S8192x256 .f32 := iblk m c 4 t
abbrev b1B (c : Dev nD) (t : Fin cfg0.N) : Vec F S128x8192 .f32 := iblk m c 5 t

/-! ## What is carried between points -/

/-- The first scratch buffer from the first point on: the edge features times the first weight matrix. -/
def keep0 (c : Dev nD) : Vec F S8192x128 .bf16 := k0_pay2 (xB m c t0_0) (w0B m c t0_0)
/-- The second: the edge features times the third weight matrix. -/
def keep1 (c : Dev nD) : Vec F S8192x128 .bf16 := k0_pay3 (xB m c t0_0) (w2B m c t0_0)

theorem keep0_eq (c : Dev nD) (t : Fin cfg0.N) (h : t = t0_0) : keep0 m c = k0_pay2 (xB m c t) (w0B m c t) := by
  subst h; rfl
theorem keep1_eq (c : Dev nD) (t : Fin cfg0.N) (h : t = t0_0) : keep1 m c = k0_pay3 (xB m c t) (w2B m c t) := by
  subst h; rfl

/-- THE ACCUMULATOR: what the output block holds after the body at point `n`. -/
def accAt (c : Dev nD) : (n : ℕ) → n < cfg0.N → Vec F S8192x128 .f32
  | 0, h => k0_pay7 (b2B m c ⟨0, h⟩) (keep1 m c) (b1B m c ⟨0, h⟩) (keep0 m c) (k0_pay4 (xB m c ⟨0, h⟩) (w1B m c ⟨0, h⟩))
  | n + 1, h =>
    if n + 1 < 15 then
      k0_pay7 (b2B m c ⟨n + 1, h⟩) (keep1 m c) (b1B m c ⟨n + 1, h⟩) (keep0 m c) (accAt c n (Nat.lt_of_succ_lt h))
    else
      k0_pay8 (b2B m c ⟨n + 1, h⟩) (keep1 m c) (b1B m c ⟨n + 1, h⟩) (keep0 m c) (accAt c n (Nat.lt_of_succ_lt h))

theorem accAt_first (c : Dev nD) (t : Fin cfg0.N) (h0 : t.val = 0) :
    accAt m c t.val t.isLt = k0_pay7 (b2B m c t) (keep1 m c) (b1B m c t) (keep0 m c) (k0_pay4 (xB m c t) (w1B m c t)) := by
  obtain ⟨n, hn⟩ := t
  cases n with
  | zero => rfl
  | succ n => exact absurd h0 (Nat.succ_ne_zero _)

theorem accAt_mid (c : Dev nD) (t : Fin cfg0.N) (h0 : t.val ≠ 0) (h1 : t.val < 15) :
    accAt m c t.val t.isLt = k0_pay7 (b2B m c t) (keep1 m c) (b1B m c t) (keep0 m c)
      (accAt m c (t.val - 1) (Nat.lt_of_le_of_lt (Nat.sub_le _ _) t.isLt)) := by
  obtain ⟨n, hn⟩ := t
  cases n with
  | zero => exact absurd rfl h0
  | succ n =>
    show (if n + 1 < 15 then _ else _) = _
    rw [if_pos h1]; rfl

theorem accAt_last (c : Dev nD) (t : Fin cfg0.N) (h0 : t.val ≠ 0) (h1 : ¬ t.val < 15) :
    accAt m c t.val t.isLt = k0_pay8 (b2B m c t) (keep1 m c) (b1B m c t) (keep0 m c)
      (accAt m c (t.val - 1) (Nat.lt_of_le_of_lt (Nat.sub_le _ _) t.isLt)) := by
  obtain ⟨n, hn⟩ := t
  cases n with
  | zero => exact absurd rfl h0
  | succ n =>
    show (if n + 1 < 15 then _ else _) = _
    rw [if_neg h1]; rfl

/-- The region's invariant before position `n`: before the first point what the launch hands over (the scratch at
    anything); afterwards the two scratch buffers at the two kept products. -/
def PhiS (c : Dev nD) : (n : ℕ) → n ≤ cfg0.N → sProp 𝕄
  | 0, _ => Pipeline.ΦA spec0 c
  | _ + 1, _ => iprop(iprop(owns (c : Thread nD τ) sc_0 fullShare (keep0 m c) ∗ owns (c : Thread nD τ) sc_1 fullShare (keep1 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) sc_0 fullShare (keep0 m c) ∗ owns (c : Thread nD τ) sc_1 fullShare (keep1 m c)) ∗ (∃ r, prngReg c r)) := by
  cases n with
  | zero => exact absurd rfl hz
  | succ n => rfl

/-! ## The proof data -/

/-- The proof data of the one pipeline on core `c`: the arrays as the region finds them; after the body at a point
    each input's buffer at its block and the output's at the accumulator; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At the first point the output's staging buffer holds anything. -/
theorem before_6_first (c : Dev nD) (t : Fin cfg0.N) (h0 : t.val = 0) (d) : (dats m 0 c).before 6 t d = d :=
  (dats m 0 c).before_out_reset 6 rfl t (.inl h0) d

/-- At a later point it holds what the point before left: the block is written back after the last point only. -/
theorem before_6_later (c : Dev nD) (t : Fin cfg0.N) (h0 : t.val ≠ 0) (d) :
    (dats m 0 c).before 6 t d = accAt m c (t.val - 1) (Nat.lt_of_le_of_lt (Nat.sub_le _ _) t.isLt) := by
  have hN : t.val < 16 := lt_of_lt_of_eq t.isLt (show cfg0.N = 16 from N_0)
  have hfl : (cfg0.win 6).flush ⟨t.val - 1, Nat.lt_of_le_of_lt (Nat.sub_le _ _) t.isLt⟩ = false := by
    cases h : (cfg0.win 6).flush ⟨t.val - 1, Nat.lt_of_le_of_lt (Nat.sub_le _ _) t.isLt⟩ with
    | false => rfl
    | true => exact absurd ((flush0_6 _).mp h) (by show ¬ (t.val - 1) % 16 = 15; omega)
  rw [(dats m 0 c).before_out_kept 6 rfl t h0 hfl live_6_all (fun _ _ => rfl) d, after_6]

theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at any point: the inputs' staging buffers hold their blocks; the point is the first, the last or neither,
    which decides the three conditionals; the output's buffer holds anything at the first point and what the point
    before left at a later one; so the case's run applies, and what it leaves is the invariant and the accumulator at
    this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_0, leaves_1, leaves_2, leaves_3, leaves_4, leaves_5, leaves_6,
    after_0, after_1, after_2, after_3, after_4, after_5, after_6]
  have hN : t.val < 16 := lt_of_lt_of_eq t.isLt (show cfg0.N = 16 from N_0)
  by_cases h0 : t.val = 0
  · rw [PhiS_castSucc m c t, PhiS_zero m c _ _ h0, PhiA_eq]
    simp only [before_6_first m c t h0]
    rw [accAt_first m c t h0, keep0_eq m c t (Fin.ext h0), keep1_eq m c t (Fin.ext h0)]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ _ _ _ _ ((first_iff t).mpr h0) ((notlast_iff t).mpr (by omega)) (fun h => absurd ((last_iff t).mp h) (by omega)) (xB m c t) (w0B m c t) (w1B m c t) (w2B m c t) (b2B m c t) (b1B m c t) d6 e0 e1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val < 15
    · rw [PhiS_castSucc m c t, PhiS_pos m c _ _ h0]
      simp only [before_6_later m c t h0]
      rw [accAt_mid m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((run_mid c (grid0.coords t) _ _ _ _ _ _ _ _ _ _ _ _ _ _ _ _ _ _ (fun h => h0 ((first_iff t).mp h)) ((notlast_iff t).mpr h1) (fun h => absurd ((last_iff t).mp h) (by omega)) (xB m c t) (w0B m c t) (w1B m c t) (w2B m c t) (b2B m c t) (b1B m c t) (accAt m c (t.val - 1) (Nat.lt_of_le_of_lt (Nat.sub_le _ _) t.isLt)) (keep0 m c) (keep1 m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ h0]
      simp only [before_6_later m c t h0]
      rw [accAt_last m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((run_last c (grid0.coords t) _ _ _ _ _ _ _ _ _ _ _ _ _ _ _ _ _ _ (fun h => h0 ((first_iff t).mp h)) (fun h => h1 ((notlast_iff t).mp h)) ((last_iff t).mpr (by omega)) (xB m c t) (w0B m c t) (w1B m c t) (w2B m c t) (b2B m c t) (b1B m c t) (accAt m c (t.val - 1) (Nat.lt_of_le_of_lt (Nat.sub_le _ _) t.isLt)) (keep0 m c) (keep1 m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- From any memory with zero counters every weakly fair execution of the program terminates, and in every final state
    each array of the pipeline holds what the library computes from the proof data — an input what it held, the output
    its entry contents overwritten by the accumulator's last value — and every other unscoped buffer what it held. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Body.lean ====
/-
  The kernel body's three runs, at either instance.

  The body is a straight line of whole-buffer loads, matrix products and whole-buffer stores under three conditionals
  on the grid point. At the first point it forms the three small products of the edge features with the three weight
  matrices: two are stored (rounded to the narrow format) into the two scratch buffers, the third starts the output
  block. At every point it loads its column block of the triangle incidence matrix and its row block of the node
  incidence matrix, forms from each the product "block, then its transpose" applied to the matching kept product, and
  adds the two results into the output block; at the last point it also takes the maximum with zero.
  Each run below says, for one of the three ways the conditionals can go, what every buffer holds afterwards as a
  named function of what it held before: a whole-buffer store reads back as the stored value, whatever was there.
-/
import proofs.«167357_g1760936591461_cont_8to1_843_7_alg».proof.Proof.Gen.KernelIdeal.Frame
import proofs.«167357_g1760936591461_cont_8to1_843_7_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading back a buffer the body stored whole -/

/-- The zero offsets of a rank-two rectangle, however they are spelt. -/
theorem off2_zero : (![0, 0] : Fin 2 → ℕ) = fun _ => 0 := by
  funext a; fin_cases a <;> rfl

/-- A buffer stored once, whole, reads back as the stored value, whatever it held before. -/
theorem read_stored {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- A buffer stored twice, whole each time, reads back as the later value. -/
theorem read_stored_twice {κ : Kind} {sp : Space} {S : Shape} {e : EltTy} (v : View sig κ sp S e) (f : v.ty.Contents (Elt F))
    {off : Fin S.rank → ℕ} (hz : off = fun _ => 0) (inb : ∀ a, off a + S.size a ≤ S.size a) (w w' : S.Idx → Elt F e) :
    v.read (Elt F) (v.writes (Elt F) f [⟨Rect.unit off S.size inb, w⟩, ⟨Rect.unit off S.size inb, w'⟩]) = w := by
  rw [View.read_writes_eq_canon _ _ _ (fun y => ⟨_, List.mem_cons_self, View.mem_set_unit_zero hz inb y⟩),
    View.canon_cons_unit_zero hz]

/-- A whole-buffer load of a whole buffer held at `x` reads `x`. -/
theorem load_whole {sp : Space} {S : Shape} {e : EltTy} (m : Memref sig .tc sp S e) (h : m.IsWhole) (x : S.Idx → Elt F e)
    {off : Fin S.rank → ℕ} (hz : off = fun _ => 0) (inb : ∀ a, off a + S.size a ≤ S.size a) :
    View.readAt (Elt F) m.view (Rect.unit off S.size inb).toLoadRect (h.unread x) = x := by
  rw [View.readAt_eq_ld, h.read_unread, View.ld_unit_zero hz]

/-! ## The body, case by case

The three conditionals of the body depend on the grid point alone: the first point fills the two scratch buffers and
starts the accumulator, every point but the last adds its two block products to it, the last point adds them and cuts
the negative part off. -/

/-- A point that is neither first nor last: the accumulator gains the point's two block products; the scratch buffers
    are read, not written. -/
theorem run_mid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : ¬ k0_cond1 i = 1#1) (hc1 : k0_cond2 i = 1#1) (hc2 : ¬ k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (acc : Vec F S8192x128 .f32) (s0 s1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x4 s1 x5 s0 acc) ∗ owns (c : Thread nD τ) arg8 fullShare s0 ∗ owns (c : Thread nD τ) arg9 fullShare s1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [read_stored _ _ off2_zero, load_whole arg5 harg5 x4 off2_zero, load_whole arg9 harg9 s1 off2_zero,
        load_whole arg6 harg6 x5 off2_zero, load_whole arg8 harg8 s0 off2_zero, load_whole arg7 harg7 acc off2_zero]
    isplitl [HS0]
    · iexists _; isplitr; · ipureintro; exact harg8.read_unread _
      iexact HS0
    iexists _; isplitr; · ipureintro; exact harg9.read_unread _
    iexact HS1

/-- The last point: the accumulator gains the point's two block products and its negative part is cut off. -/
theorem run_last (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : ¬ k0_cond1 i = 1#1) (hc1 : ¬ k0_cond2 i = 1#1) (hc2 : k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (acc : Vec F S8192x128 .f32) (s0 s1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare acc ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay8 x4 s1 x5 s0 acc) ∗ owns (c : Thread nD τ) arg8 fullShare s0 ∗ owns (c : Thread nD τ) arg9 fullShare s1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [read_stored _ _ off2_zero, load_whole arg5 harg5 x4 off2_zero, load_whole arg9 harg9 s1 off2_zero,
        load_whole arg6 harg6 x5 off2_zero, load_whole arg8 harg8 s0 off2_zero, load_whole arg7 harg7 acc off2_zero]
    isplitl [HS0]
    · iexists _; isplitr; · ipureintro; exact harg8.read_unread _
      iexact HS0
    iexists _; isplitr; · ipureintro; exact harg9.read_unread _
    iexact HS1

/-- The first point: whatever the scratch buffers and the accumulator held, the scratch buffers end at the two small
    products kept for every later point, and the accumulator at the third small product plus the point's two block
    products. -/
theorem run_first (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8192x256 .f32) (harg5 : arg5.IsWhole) (arg6 : Memref sig .tc .vmem S128x8192 .f32) (harg6 : arg6.IsWhole) (arg7 : Memref sig .tc .vmem S8192x128 .f32) (harg7 : arg7.IsWhole) (arg8 : Memref sig .tc .vmem S8192x128 .bf16) (harg8 : arg8.IsWhole) (arg9 : Memref sig .tc .vmem S8192x128 .bf16) (harg9 : arg9.IsWhole) (hc0 : k0_cond1 i = 1#1) (hc1 : k0_cond2 i = 1#1) (hc2 : ¬ k0_cond3 i = 1#1)
    (x0 : Vec F S8192x128 .f32) (x1 : Vec F S128x128 .f32) (x2 : Vec F S128x128 .f32) (x3 : Vec F S128x128 .f32) (x4 : Vec F S8192x256 .f32) (x5 : Vec F S128x8192 .f32) (d6 : Vec F S8192x128 .f32) (d0 d1 : Vec F S8192x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d0 ∗ owns (c : Thread nD τ) arg9 fullShare d1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x4 (k0_pay3 x0 x3) x5 (k0_pay2 x0 x1) (k0_pay4 x0 x2)) ∗ owns (c : Thread nD τ) arg8 fullShare (k0_pay2 x0 x1) ∗ owns (c : Thread nD τ) arg9 fullShare (k0_pay3 x0 x3)) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9) K := by
    intro E K
    simp only [cc0__scone_kernel_eq_skeleton]; unfold cc0__scone_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_run_names
      rw [read_stored_twice _ _ off2_zero]
      simp only [View.readCov_unit_zero (S := S8192x128) _ off2_zero, load_whole (S := S8192x128) _ _ _ off2_zero, load_whole (S := S128x128) _ _ _ off2_zero, load_whole (S := S8192x256) _ _ _ off2_zero, load_whole (S := S128x8192) _ _ _ off2_zero]
    isplitl [HS0]
    · iexists _; isplitr; swap; · iexact HS0
      ipureintro
      sl_unfold_run_names
      rw [read_stored _ _ off2_zero]
      simp only [load_whole (S := S8192x128) _ _ _ off2_zero, load_whole (S := S128x128) _ _ _ off2_zero, load_whole (S := S8192x256) _ _ _ off2_zero, load_whole (S := S128x8192) _ _ _ off2_zero]
    iexists _; isplitr; swap; · iexact HS1
    ipureintro
    sl_unfold_run_names
    rw [read_stored _ _ off2_zero]
    simp only [load_whole (S := S8192x128) _ _ _ off2_zero, load_whole (S := S128x128) _ _ _ off2_zero, load_whole (S := S8192x256) _ _ _ off2_zero, load_whole (S := S128x8192) _ _ _ off2_zero]

end Cert.KernelIdeal.Body

end
-- ==== Proof.Accum.lean ====
/-
  The proof data of the one pipeline and its body obligation, at either instance.

  The kernel keeps two things between grid points. Its two scratch buffers hold, from the first point on, the two
  small products it computes there once (edge features times the first and the third weight matrix, rounded to the
  narrow format); the region's invariant says so, point by point. Its output block is an accumulator: the first point
  sets it to the third small product (with the second weight matrix) plus that point's two block products, every later
  point adds its own two block products, and the last point also cuts the negative part off. What the accumulator
  holds after each point is a function of the point by recursion (`accAt`), and that is what the proof data names
  for the output window; the pipeline writes the block back once, after the last point.
-/
import proofs.«167357_g1760936591461_cont_8to1_843_7_alg».proof.Proof.Body

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions and the windows' liveness, decided over the sixteen points -/

/-- The first conditional is taken at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second at every point but the last. -/
theorem notlast_iff : ∀ t : Fin cfg0.N, k0_cond2 (grid0.coords t) = 1#1 ↔ t.val < 15 :=
  (by decide +kernel : ∀ t : Fin grid0.N, k0_cond2 (grid0.coords t) = 1#1 ↔ t.val < 15)
/-- The third at the last point only. -/
theorem last_iff : ∀ t : Fin cfg0.N, k0_cond3 (grid0.coords t) = 1#1 ↔ t.val = 15 :=
  (by decide +kernel : ∀ t : Fin grid0.N, k0_cond3 (grid0.coords t) = 1#1 ↔ t.val = 15)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel

/-- The output window is stored into at every point (one of the last two conditionals always holds), so it is idle
    at no coordinates at all. -/
theorem live_6_all : ∀ i : grid0.Coords, cfg0.idle 6 i = false := by decide +kernel

/-! ## The staging memrefs at a point, and the two scratch buffers -/

abbrev ms_0 (t : Fin cfg0.N) : Memref sig .tc .vmem S8192x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8192x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x8192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8192x128 .f32 := win0_6.stage (cfg0.slots t 6)
abbrev hs_6 (t : Fin cfg0.N) : (ms_6 t).IsWhole := hstage0_6 ((cfg0.slots t 6).cast nbuf0_6)
abbrev sc_0 : Memref sig .tc .vmem S8192x128 .bf16 := Memref.whole cc0_scratch0
abbrev sc_1 : Memref sig .tc .vmem S8192x128 .bf16 := Memref.whole cc0_scratch1

/-- What the launch hands the region besides the windows: the two scratch buffers, each whole at some contents, and
    the generator register at some state. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-! ## The blocks, at their literal types -/

abbrev xB (c : Dev nD) (t : Fin cfg0.N) : Vec F S8192x128 .f32 := iblk m c 0 t
abbrev w0B (c : Dev nD) (t : Fin cfg0.N) : Vec F S128x128 .f32 := iblk m c 1 t
abbrev w1B (c : Dev nD) (t : Fin cfg0.N) : Vec F S128x128 .f32 := iblk m c 2 t
abbrev w2B (c : Dev nD) (t : Fin cfg0.N) : Vec F S128x128 .f32 := iblk m c 3 t
abbrev b2B (c : Dev nD) (t : Fin cfg0.N) : Vec F S8192x256 .f32 := iblk m c 4 t
abbrev b1B (c : Dev nD) (t : Fin cfg0.N) : Vec F S128x8192 .f32 := iblk m c 5 t

/-! ## What is carried between points -/

/-- The first scratch buffer from the first point on: the edge features times the first weight matrix. -/
def keep0 (c : Dev nD) : Vec F S8192x128 .bf16 := k0_pay2 (xB m c t0_0) (w0B m c t0_0)
/-- The second: the edge features times the third weight matrix. -/
def keep1 (c : Dev nD) : Vec F S8192x128 .bf16 := k0_pay3 (xB m c t0_0) (w2B m c t0_0)

theorem keep0_eq (c : Dev nD) (t : Fin cfg0.N) (h : t = t0_0) : keep0 m c = k0_pay2 (xB m c t) (w0B m c t) := by
  subst h; rfl
theorem keep1_eq (c : Dev nD) (t : Fin cfg0.N) (h : t = t0_0) : keep1 m c = k0_pay3 (xB m c t) (w2B m c t) := by
  subst h; rfl

/-- THE ACCUMULATOR: what the output block holds after the body at point `n`. -/
def accAt (c : Dev nD) : (n : ℕ) → n < cfg0.N → Vec F S8192x128 .f32
  | 0, h => k0_pay7 (b2B m c ⟨0, h⟩) (keep1 m c) (b1B m c ⟨0, h⟩) (keep0 m c) (k0_pay4 (xB m c ⟨0, h⟩) (w1B m c ⟨0, h⟩))
  | n + 1, h =>
    if n + 1 < 15 then
      k0_pay7 (b2B m c ⟨n + 1, h⟩) (keep1 m c) (b1B m c ⟨n + 1, h⟩) (keep0 m c) (accAt c n (Nat.lt_of_succ_lt h))
    else
      k0_pay8 (b2B m c ⟨n + 1, h⟩) (keep1 m c) (b1B m c ⟨n + 1, h⟩) (keep0 m c) (accAt c n (Nat.lt_of_succ_lt h))

theorem accAt_first (c : Dev nD) (t : Fin cfg0.N) (h0 : t.val = 0) :
    accAt m c t.val t.isLt = k0_pay7 (b2B m c t) (keep1 m c) (b1B m c t) (keep0 m c) (k0_pay4 (xB m c t) (w1B m c t)) := by
  obtain ⟨n, hn⟩ := t
  cases n with
  | zero => rfl
  | succ n => exact absurd h0 (Nat.succ_ne_zero _)

theorem accAt_mid (c : Dev nD) (t : Fin cfg0.N) (h0 : t.val ≠ 0) (h1 : t.val < 15) :
    accAt m c t.val t.isLt = k0_pay7 (b2B m c t) (keep1 m c) (b1B m c t) (keep0 m c)
      (accAt m c (t.val - 1) (Nat.lt_of_le_of_lt (Nat.sub_le _ _) t.isLt)) := by
  obtain ⟨n, hn⟩ := t
  cases n with
  | zero => exact absurd rfl h0
  | succ n =>
    show (if n + 1 < 15 then _ else _) = _
    rw [if_pos h1]; rfl

theorem accAt_last (c : Dev nD) (t : Fin cfg0.N) (h0 : t.val ≠ 0) (h1 : ¬ t.val < 15) :
    accAt m c t.val t.isLt = k0_pay8 (b2B m c t) (keep1 m c) (b1B m c t) (keep0 m c)
      (accAt m c (t.val - 1) (Nat.lt_of_le_of_lt (Nat.sub_le _ _) t.isLt)) := by
  obtain ⟨n, hn⟩ := t
  cases n with
  | zero => exact absurd rfl h0
  | succ n =>
    show (if n + 1 < 15 then _ else _) = _
    rw [if_neg h1]; rfl

/-- The region's invariant before position `n`: before the first point what the launch hands over (the scratch at
    anything); afterwards the two scratch buffers at the two kept products. -/
def PhiS (c : Dev nD) : (n : ℕ) → n ≤ cfg0.N → sProp 𝕄
  | 0, _ => Pipeline.ΦA spec0 c
  | _ + 1, _ => iprop(iprop(owns (c : Thread nD τ) sc_0 fullShare (keep0 m c) ∗ owns (c : Thread nD τ) sc_1 fullShare (keep1 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) sc_0 fullShare (keep0 m c) ∗ owns (c : Thread nD τ) sc_1 fullShare (keep1 m c)) ∗ (∃ r, prngReg c r)) := by
  cases n with
  | zero => exact absurd rfl hz
  | succ n => rfl

/-! ## The proof data -/

/-- The proof data of the one pipeline on core `c`: the arrays as the region finds them; after the body at a point
    each input's buffer at its block and the output's at the accumulator; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At the first point the output's staging buffer holds anything. -/
theorem before_6_first (c : Dev nD) (t : Fin cfg0.N) (h0 : t.val = 0) (d) : (dats m 0 c).before 6 t d = d :=
  (dats m 0 c).before_out_reset 6 rfl t (.inl h0) d

/-- At a later point it holds what the point before left: the block is written back after the last point only. -/
theorem before_6_later (c : Dev nD) (t : Fin cfg0.N) (h0 : t.val ≠ 0) (d) :
    (dats m 0 c).before 6 t d = accAt m c (t.val - 1) (Nat.lt_of_le_of_lt (Nat.sub_le _ _) t.isLt) := by
  have hN : t.val < 16 := lt_of_lt_of_eq t.isLt (show cfg0.N = 16 from N_0)
  have hfl : (cfg0.win 6).flush ⟨t.val - 1, Nat.lt_of_le_of_lt (Nat.sub_le _ _) t.isLt⟩ = false := by
    cases h : (cfg0.win 6).flush ⟨t.val - 1, Nat.lt_of_le_of_lt (Nat.sub_le _ _) t.isLt⟩ with
    | false => rfl
    | true => exact absurd ((flush0_6 _).mp h) (by show ¬ (t.val - 1) % 16 = 15; omega)
  rw [(dats m 0 c).before_out_kept 6 rfl t h0 hfl live_6_all (fun _ _ => rfl) d, after_6]

theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at any point: the inputs' staging buffers hold their blocks; the point is the first, the last or neither,
    which decides the three conditionals; the output's buffer holds anything at the first point and what the point
    before left at a later one; so the case's run applies, and what it leaves is the invariant and the accumulator at
    this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_0, leaves_1, leaves_2, leaves_3, leaves_4, leaves_5, leaves_6,
    after_0, after_1, after_2, after_3, after_4, after_5, after_6]
  have hN : t.val < 16 := lt_of_lt_of_eq t.isLt (show cfg0.N = 16 from N_0)
  by_cases h0 : t.val = 0
  · rw [PhiS_castSucc m c t, PhiS_zero m c _ _ h0, PhiA_eq]
    simp only [before_6_first m c t h0]
    rw [accAt_first m c t h0, keep0_eq m c t (Fin.ext h0), keep1_eq m c t (Fin.ext h0)]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ _ _ _ _ ((first_iff t).mpr h0) ((notlast_iff t).mpr (by omega)) (fun h => absurd ((last_iff t).mp h) (by omega)) (xB m c t) (w0B m c t) (w1B m c t) (w2B m c t) (b2B m c t) (b1B m c t) d6 e0 e1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val < 15
    · rw [PhiS_castSucc m c t, PhiS_pos m c _ _ h0]
      simp only [before_6_later m c t h0]
      rw [accAt_mid m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((run_mid c (grid0.coords t) _ _ _ _ _ _ _ _ _ _ _ _ _ _ _ _ _ _ (fun h => h0 ((first_iff t).mp h)) ((notlast_iff t).mpr h1) (fun h => absurd ((last_iff t).mp h) (by omega)) (xB m c t) (w0B m c t) (w1B m c t) (w2B m c t) (b2B m c t) (b1B m c t) (accAt m c (t.val - 1) (Nat.lt_of_le_of_lt (Nat.sub_le _ _) t.isLt)) (keep0 m c) (keep1 m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ h0]
      simp only [before_6_later m c t h0]
      rw [accAt_last m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((run_last c (grid0.coords t) _ _ _ _ _ _ _ _ _ _ _ _ _ _ _ _ _ _ (fun h => h0 ((first_iff t).mp h)) (fun h => h1 ((notlast_iff t).mp h)) ((last_iff t).mpr (by omega)) (xB m c t) (w0B m c t) (w1B m c t) (w2B m c t) (b2B m c t) (b1B m c t) (accAt m c (t.val - 1) (Nat.lt_of_le_of_lt (Nat.sub_le _ _) t.isLt)) (keep0 m c) (keep1 m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- From any memory with zero counters every weakly fair execution of the program terminates, and in every final state
    each array of the pipeline holds what the library computes from the proof data — an input what it held, the output
    its entry contents overwritten by the accumulator's last value — and every other unscoped buffer what it held. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.SumBlocks.lean ====
/-
  Regrouping a finite sum by blocks, in any commutative additive monoid (the extended reals among them):
  a sum over `m * n` consecutive indices is the sum, block by block, of the `n` terms of each of the `m` blocks,
  and a sum of pairwise sums is the pair of the sums. Only commutativity and associativity of `+` are used, so
  nothing here needs the summands to be finite.
-/
import Mathlib.Algebra.BigOperators.Fin
import Mathlib.Algebra.BigOperators.Group.Finset.Basic
import Mathlib.Logic.Equiv.Fin.Basic

namespace SumBlocks

open Finset

variable {M : Type*} [AddCommMonoid M]

/-- The index of entry `j` of block `s` among `m` blocks of `n` consecutive indices: `n * s + j`. -/
def at_ {m n : ℕ} (s : Fin m) (j : Fin n) : Fin (m * n) := finProdFinEquiv (s, j)

theorem at_val {m n : ℕ} (s : Fin m) (j : Fin n) : (at_ s j).val = j.val + n * s.val := rfl

/-- A sum over `m * n` indices, block by block. -/
theorem sum_blocks {m n : ℕ} (f : Fin (m * n) → M) :
    ∑ t, f t = ∑ s : Fin m, ∑ j : Fin n, f (at_ s j) := by
  rw [← Fintype.sum_prod_type' (fun s j => f (at_ s j))]
  exact (Equiv.sum_comp finProdFinEquiv f).symm

end SumBlocks
-- ==== Proof.Final.lean ====
/-
  What the run leaves in the result array, and what the body's blocks are.

  The output window has ONE block, the whole array (its index map is constant), and the pipeline writes it back once,
  after the last grid point: so the result array ends holding the accumulator's value after that point. Of the six
  input windows four also have the whole array as their one block (the edge features and the three weight matrices);
  the triangle incidence matrix is read a block of 256 columns per point, the node incidence matrix a block of 128
  rows per point.
-/
import proofs.«167357_g1760936591461_cont_8to1_843_7_alg».proof.Proof.Accum
import proofs.«167357_g1760936591461_cont_8to1_843_7_alg».proof.Proof.SumBlocks
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen SumBlocks

variable {F : FTy → Type} [FloatOps F]

variable (m : (ℓ : Loc nD τ sig) → Buf (Elt F) ℓ) (ρ : Dev nD → PrngReg)

/-! ## The windows' block indices, decided over the sixteen points -/

theorem index_0 : ∀ t : Fin cfg0.N, ∀ a : Fin 2, win0_0.index t a = 0 :=
  (by decide +kernel : ∀ t : Fin grid0.N, ∀ a : Fin 2, win0_0.index t a = 0)
theorem index_1 : ∀ t : Fin cfg0.N, ∀ a : Fin 2, win0_1.index t a = 0 :=
  (by decide +kernel : ∀ t : Fin grid0.N, ∀ a : Fin 2, win0_1.index t a = 0)
theorem index_2 : ∀ t : Fin cfg0.N, ∀ a : Fin 2, win0_2.index t a = 0 :=
  (by decide +kernel : ∀ t : Fin grid0.N, ∀ a : Fin 2, win0_2.index t a = 0)
theorem index_3 : ∀ t : Fin cfg0.N, ∀ a : Fin 2, win0_3.index t a = 0 :=
  (by decide +kernel : ∀ t : Fin grid0.N, ∀ a : Fin 2, win0_3.index t a = 0)
/-- The triangle incidence matrix is read at column block `t`. -/
theorem index_4 : ∀ t : Fin cfg0.N, win0_4.index t 0 = 0 ∧ win0_4.index t 1 = t.val :=
  (by decide +kernel : ∀ t : Fin grid0.N, win0_4.index t 0 = 0 ∧ win0_4.index t 1 = t.val)
/-- The node incidence matrix at row block `t`. -/
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, ∀ a : Fin 2, win0_6.index t a = 0 :=
  (by decide +kernel : ∀ t : Fin grid0.N, ∀ a : Fin 2, win0_6.index t a = 0)

/-- The output's block is uncut: it has the array's own extents. -/
theorem xsize_6 : ∀ a : Fin 2, win0_6.xsize (grid0.coords t0_15) a = win0_6.size a := by decide +kernel

/-! ## The result array -/

/-- The accumulator after the last point, as contents of the result array. -/
abbrev result (c : Dev nD) : Buf (Elt F) ((c : Thread nD τ).loc main_v0) :=
  accAt m c 15 (by rw [show cfg0.N = 16 from N_0]; decide)

/-- The one write-back writes it: the window's block at index (0, 0), of the array's own extents, is the array. -/
theorem flushed_eq (c : Dev nD) (t : Fin cfg0.N) (hf : (cfg0.win 6).flush t = true) :
    (dats m 0 c).flushed 6 t = ((cfg0.win 6).blk t).view.read (Elt F) (result m c) := by
  have hN : cfg0.N = 16 := N_0
  have h15 : t.val = 15 := by have := (flush0_6 t).mp hf; have := t.isLt; omega
  have hacc : accAt m c t.val t.isLt = result m c := by
    obtain ⟨n, hn⟩ := t
    have : n = 15 := h15
    subst this; rfl
  show (cfg0.win 6).cut (grid0.coords t) ((dats m 0 c).after 6 t) = _
  rw [after_6, hacc]
  have hz' : (fun a => win0_6.index t a * main_v0.ty.shape.size a) = fun _ => 0 :=
    funext fun a => by rw [index_6 t a, Nat.zero_mul]
  exact (Memref.read_access_unit_zero (Elt F) main_v0 hz' (fun a => by rw [congrFun hz' a]; simp) (result m c)).symm

/-- So the result array ends holding the accumulator's last value: the last point's block covers it. -/
theorem final_6 (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v0).slice (win0_6.rect t0_15)).set
      rw [View.set_slice_whole, Rect.mem_set_unit]
      intro a
      rw [index_6 t0_15 a, Nat.zero_mul, Nat.zero_add, xsize_6 a]
      exact ⟨Nat.zero_le _, (i a).isLt⟩⟩

/-- The run, read: the result array at the accumulator's last value, every argument array unchanged. -/
theorem run_value : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_6 m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

/-! ## The blocks -/

/-- The edge features' one block is the array. -/
theorem xB_eq (c : Dev nD) (t : Fin cfg0.N) : xB m c t = m ((c : Thread nD τ).loc main_arg0) := by
  have hz' : (fun a => win0_0.index t a * main_arg0.ty.shape.size a) = fun _ => 0 :=
    funext fun a => by rw [index_0 t a, Nat.zero_mul]
  exact Memref.read_access_unit_zero (Elt F) main_arg0 hz' (fun a => by rw [congrFun hz' a]; simp) _

/-- So is each weight matrix's. -/
theorem w0B_eq (c : Dev nD) (t : Fin cfg0.N) : w0B m c t = m ((c : Thread nD τ).loc main_arg3) := by
  have hz' : (fun a => win0_1.index t a * main_arg3.ty.shape.size a) = fun _ => 0 :=
    funext fun a => by rw [index_1 t a, Nat.zero_mul]
  exact Memref.read_access_unit_zero (Elt F) main_arg3 hz' (fun a => by rw [congrFun hz' a]; simp) _
theorem w1B_eq (c : Dev nD) (t : Fin cfg0.N) : w1B m c t = m ((c : Thread nD τ).loc main_arg4) := by
  have hz' : (fun a => win0_2.index t a * main_arg4.ty.shape.size a) = fun _ => 0 :=
    funext fun a => by rw [index_2 t a, Nat.zero_mul]
  exact Memref.read_access_unit_zero (Elt F) main_arg4 hz' (fun a => by rw [congrFun hz' a]; simp) _
theorem w2B_eq (c : Dev nD) (t : Fin cfg0.N) : w2B m c t = m ((c : Thread nD τ).loc main_arg5) := by
  have hz' : (fun a => win0_3.index t a * main_arg5.ty.shape.size a) = fun _ => 0 :=
    funext fun a => by rw [index_3 t a, Nat.zero_mul]
  exact Memref.read_access_unit_zero (Elt F) main_arg5 hz' (fun a => by rw [congrFun hz' a]; simp) _

/-- Point `t`'s block of the triangle incidence matrix is its columns `256 t … 256 t + 255`. -/
theorem b2B_apply (c : Dev nD) (t : Fin cfg0.N) (e : Fin 8192) (j : Fin 256) :
    b2B m c t (ix2 e j)
      = m ((c : Thread nD τ).loc main_arg2) (ix2 e (at_ (m := 16) (n := 256) ⟨t.val, lt_of_lt_of_eq t.isLt N_0⟩ j)) := by
  show ((cfg0.win 4).blk t).view.read (Elt F) (V m c main_arg2) (ix2 e j) = _
  rw [View.read_apply]
  refine congrArg (V m c main_arg2) (funext fun a => Fin.ext ?_)
  match a with
  | ⟨0, _⟩ =>
    show win0_4.index t 0 * 8192 + 1 * e.val = e.val
    rw [(index_4 t).1]; omega
  | ⟨1, _⟩ =>
    show win0_4.index t 1 * 256 + 1 * j.val = j.val + 256 * t.val
    rw [(index_4 t).2]; omega

/-- Point `t`'s block of the node incidence matrix is its rows `128 t … 128 t + 127`. -/
theorem b1B_apply (c : Dev nD) (t : Fin cfg0.N) (i : Fin 128) (e : Fin 8192) :
    b1B m c t (ix2 i e)
      = m ((c : Thread nD τ).loc main_arg1) (ix2 (at_ (m := 16) (n := 128) ⟨t.val, lt_of_lt_of_eq t.isLt N_0⟩ i) e) := by
  show ((cfg0.win 5).blk t).view.read (Elt F) (V m c main_arg1) (ix2 i e) = _
  rw [View.read_apply]
  refine congrArg (V m c main_arg1) (funext fun a => Fin.ext ?_)
  match a with
  | ⟨0, _⟩ =>
    show win0_5.index t 0 * 128 + 1 * i.val = i.val + 128 * t.val
    rw [(index_5 t).1]; omega
  | ⟨1, _⟩ =>
    show win0_5.index t 1 * 8192 + 1 * e.val = e.val
    rw [(index_5 t).2]; omega

end Cert.KernelIdeal.Body

end
-- ==== Proof.Layer.lean ====
/-
  The layer as mathematics, over arrays of extended reals.

  With `x` the edge features (8192 × 128), `B1` the node incidence matrix (2048 × 8192), `B2` the triangle incidence
  matrix (8192 × 4096) and `W0`, `W1`, `W2` three weight matrices (128 × 128), the layer is

      max (B2 · (B2ᵀ · (x · W2)) + x · W1 + B1ᵀ · (B1 · (x · W0))) 0.

  Entry (e, f) of the first term is a sum over the 4096 triangles `t` of `B2[e,t] · Σ_e' B2[e',t] · (x·W2)[e',f]`,
  and of the third a sum over the 2048 nodes `n` of `B1[n,e] · Σ_e' B1[n,e'] · (x·W0)[e',f]`. The reference sums
  each over its whole range; the kernel sums them sixteen blocks at a time (256 triangles and 128 nodes per grid
  point), adding each point's two partial sums into an accumulator that starts at `x · W1`. The two agree because a
  finite sum in a commutative monoid may be regrouped freely — nothing needs the summands to be finite numbers.
-/
import Idealize.ShloMosaic.Lib.ValueIdx
import proofs.«167357_g1760936591461_cont_8to1_843_7_alg».proof.Proof.SumBlocks

noncomputable section

namespace Layer

open Idealize.ShloMosaic Idealize.ShloMosaic.ValueIdx Finset SumBlocks

/-- A matrix of extended reals with `a` rows and `b` columns. -/
abbrev Arr (a b : ℕ) : Type := (⟨2, ![a, b]⟩ : Shape).Idx → EReal

/-- Entry (e, f) of the product of the edge features with a weight matrix. -/
def small (x : Arr 8192 128) (w : Arr 128 128) (e : Fin 8192) (f : Fin 128) : EReal :=
  ∑ k : Fin 128, x (ix2 e k) * w (ix2 k f)

/-- Triangle `t`'s share of entry (e, f) of `B2 · (B2ᵀ · p)`. -/
def upTerm (B2 : Arr 8192 4096) (p : Fin 8192 → Fin 128 → EReal) (e : Fin 8192) (f : Fin 128) (t : Fin 4096) : EReal :=
  B2 (ix2 e t) * ∑ e' : Fin 8192, B2 (ix2 e' t) * p e' f

/-- Node `n`'s share of entry (e, f) of `B1ᵀ · (B1 · p)`. -/
def loTerm (B1 : Arr 2048 8192) (p : Fin 8192 → Fin 128 → EReal) (e : Fin 8192) (f : Fin 128) (n : Fin 2048) : EReal :=
  B1 (ix2 n e) * ∑ e' : Fin 8192, B1 (ix2 n e') * p e' f

/-- The layer at entry (e, f), summed as the reference sums it. -/
def layer (x : Arr 8192 128) (B1 : Arr 2048 8192) (B2 : Arr 8192 4096) (W0 W1 W2 : Arr 128 128) (e : Fin 8192) (f : Fin 128) : EReal :=
  max ((∑ t : Fin 4096, upTerm B2 (small x W2) e f t + small x W1 e f) + ∑ n : Fin 2048, loTerm B1 (small x W0) e f n) 0

/-- What grid point `s` adds to the accumulator at entry (e, f): its 256 triangles' shares and its 128 nodes' shares. -/
def step (x : Arr 8192 128) (B1 : Arr 2048 8192) (B2 : Arr 8192 4096) (W0 W2 : Arr 128 128) (e : Fin 8192) (f : Fin 128) (s : Fin 16) : EReal :=
  (∑ j : Fin 256, upTerm B2 (small x W2) e f (at_ s j)) + ∑ i : Fin 128, loTerm B1 (small x W0) e f (at_ s i)

/-- The accumulator at entry (e, f) after points `0 … n`: `x · W1` plus those points' additions, in point order. -/
def accum (x : Arr 8192 128) (B1 : Arr 2048 8192) (B2 : Arr 8192 4096) (W0 W1 W2 : Arr 128 128) (e : Fin 8192) (f : Fin 128) : ℕ → EReal
  | 0 => small x W1 e f + (if h : 0 < 16 then step x B1 B2 W0 W2 e f ⟨0, h⟩ else 0)
  | n + 1 => accum x B1 B2 W0 W1 W2 e f n + (if h : n + 1 < 16 then step x B1 B2 W0 W2 e f ⟨n + 1, h⟩ else 0)

/-- The layer at entry (e, f), summed as the kernel sums it. -/
def layerK (x : Arr 8192 128) (B1 : Arr 2048 8192) (B2 : Arr 8192 4096) (W0 W1 W2 : Arr 128 128) (e : Fin 8192) (f : Fin 128) : EReal :=
  max (accum x B1 B2 W0 W1 W2 e f 15) 0

/-- The accumulator after points `0 … n` is `x · W1` plus the sum of those points' additions. -/
theorem accum_eq (x : Arr 8192 128) (B1 : Arr 2048 8192) (B2 : Arr 8192 4096) (W0 W1 W2 : Arr 128 128) (e : Fin 8192) (f : Fin 128) (n : ℕ) :
    accum x B1 B2 W0 W1 W2 e f n
      = small x W1 e f + ∑ s ∈ Finset.range (n + 1), (if h : s < 16 then step x B1 B2 W0 W2 e f ⟨s, h⟩ else 0) := by
  induction n with
  | zero =>
    show _ = _ + ∑ s ∈ Finset.range 1, _
    rw [Finset.sum_range_one]; rfl
  | succ n ih => rw [accum, ih, Finset.sum_range_succ _ (n + 1), add_assoc]

/-- THE REGROUPING: sixteen blocks of 256 triangles are the 4096 triangles, sixteen blocks of 128 nodes the 2048
    nodes, and the sum of the points' pairs is the pair of the sums. -/
theorem layerK_eq_layer (x : Arr 8192 128) (B1 : Arr 2048 8192) (B2 : Arr 8192 4096) (W0 W1 W2 : Arr 128 128) (e : Fin 8192) (f : Fin 128) :
    layerK x B1 B2 W0 W1 W2 e f = layer x B1 B2 W0 W1 W2 e f := by
  unfold layerK layer
  congr 1
  rw [accum_eq, Finset.sum_range (fun s => if h : s < 16 then step x B1 B2 W0 W2 e f ⟨s, h⟩ else 0)]
  have hs : ∀ s : Fin 16, (if h : s.val < 16 then step x B1 B2 W0 W2 e f ⟨s.val, h⟩ else 0) = step x B1 B2 W0 W2 e f s :=
    fun s => by rw [dif_pos s.isLt]
  simp only [hs]
  unfold step
  rw [Finset.sum_add_distrib,
    ← sum_blocks (m := 16) (n := 256) (fun t => upTerm B2 (small x W2) e f t),
    ← sum_blocks (m := 16) (n := 128) (fun n => loTerm B1 (small x W0) e f n)]
  rw [add_comm (small x W1 e f), add_assoc, add_assoc]
  congr 1
  rw [add_comm]

end Layer

end
-- ==== Proof.KPay.lean ====
/-
  The kernel's payloads read at an entry, at the exact instance, where every change of float format is the identity
  and a matrix product into a zero accumulator is the plain sum of products over the contracted axis.
-/
import proofs.«167357_g1760936591461_cont_8to1_843_7_alg».proof.Proof.Gen.KernelIdeal.Skeleton
import proofs.«167357_g1760936591461_cont_8to1_843_7_alg».proof.Proof.Layer
import Idealize.ShloMosaic.PureOps.Ideal.Laws
import Idealize.ShloMosaic.Lib.ValueIdx
import Idealize.ShloMosaic.Lib.Pipeline.Value

noncomputable section

namespace Cert.KernelIdeal.KPay

open Idealize.ShloMosaic Idealize.ShloMosaic.ValueIdx Cert.KernelIdeal Cert.KernelIdeal.Gen Finset

/-! ## A matrix product into a zero accumulator, read at an entry

For each of the kernel's five products: where the left and right operands are read at result entry `i` and
contraction position `q` (one lemma per operand axis), and the entry as the sum over the contracted axis. A product
whose left operand is contracted along its axis 0 is a product by the transpose. -/

theorem lhsA_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl

theorem lhsA_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q

theorem rhsA_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q

theorem rhsA_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Entry (a, b) of an 8192 × 128 matrix times a 128 × 128 one, into a zero accumulator: the sum over the 128 shared positions. -/
theorem mmA_apply {φ₁ φ₂ : FTy} (lhs : FVec Ideal S8192x128 φ₁) (rhs : FVec Ideal S128x128 φ₂) (a : Fin 8192) (b : Fin 128) :
    matmul (F := Ideal) dot_S8192x128_S128x128_S8192x128_1_0_0_1_n_n none lhs rhs (constant S8192x128 .f32 0x00000000#32) (ix2 a b)
      = ∑ k : Fin 128, lhs (ix2 a k) * rhs (ix2 k b) := by
  refine (Ideal.matmul_constant_zero_apply dot_S8192x128_S128x128_S8192x128_1_0_0_1_n_n none lhs rhs (ix2 a b)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 a b) ((contrEquiv1 dot_S8192x128_S128x128_S8192x128_1_0_0_1_n_n 128 rfl rfl).symm k) = ix2 a k := funext fun c => Fin.ext (by
    match c with
    | ⟨0, _⟩ => exact lhsA_0 _ _
    | ⟨1, _⟩ => exact (lhsA_1 _ _).trans hk)
  have er : dot_S8192x128_S128x128_S8192x128_1_0_0_1_n_n.rhsIdx (ix2 a b) ((contrEquiv1 dot_S8192x128_S128x128_S8192x128_1_0_0_1_n_n 128 rfl rfl).symm k) = ix2 k b := funext fun c => Fin.ext (by
    match c with
    | ⟨0, _⟩ => exact (rhsA_0 _ _).trans hk
    | ⟨1, _⟩ => exact rhsA_1 _ _)
  rw [el, er]

theorem lhsB_0 (i : S256x128.Idx) (q : dot_S8192x256_S8192x128_S256x128_0_0_1_1_n_n.contr.Idx) :
    (dot_S8192x256_S8192x128_S256x128_0_0_1_1_n_n.lhsIdx i q 0).val = (q ⟨0, by decide⟩).val :=
  dot_S8192x256_S8192x128_S256x128_0_0_1_1_n_n.lhsIdx_val_of_single rfl i q

theorem lhsB_1 (i : S256x128.Idx) (q : dot_S8192x256_S8192x128_S256x128_0_0_1_1_n_n.contr.Idx) :
    (dot_S8192x256_S8192x128_S256x128_0_0_1_1_n_n.lhsIdx i q 1).val = (i 0).val := by
  unfold DotDims.lhsIdx
  rw [dif_neg (show ¬(1 : Fin S8192x256.rank) ∈ dot_S8192x256_S8192x128_S256x128_0_0_1_1_n_n.lhsBatch by decide), dif_pos (show (1 : Fin S8192x256.rank) ∈ dot_S8192x256_S8192x128_S256x128_0_0_1_1_n_n.lhsNonContracting by decide)]
  rfl

theorem rhsB_0 (i : S256x128.Idx) (q : dot_S8192x256_S8192x128_S256x128_0_0_1_1_n_n.contr.Idx) :
    (dot_S8192x256_S8192x128_S256x128_0_0_1_1_n_n.rhsIdx i q 0).val = (q ⟨0, by decide⟩).val :=
  dot_S8192x256_S8192x128_S256x128_0_0_1_1_n_n.rhsIdx_val_of_single rfl i q

theorem rhsB_1 (i : S256x128.Idx) (q : dot_S8192x256_S8192x128_S256x128_0_0_1_1_n_n.contr.Idx) :
    (dot_S8192x256_S8192x128_S256x128_0_0_1_1_n_n.rhsIdx i q 1).val = (i 1).val := by
  unfold DotDims.rhsIdx
  rw [dif_neg (show ¬(1 : Fin S8192x128.rank) ∈ dot_S8192x256_S8192x128_S256x128_0_0_1_1_n_n.rhsBatch by decide), dif_pos (show (1 : Fin S8192x128.rank) ∈ dot_S8192x256_S8192x128_S256x128_0_0_1_1_n_n.rhsNonContracting by decide)]
  rfl

/-- Entry (a, b) of the transpose of an 8192 × 256 matrix times an 8192 × 128 one, into a zero accumulator: the sum over the 8192 shared rows. -/
theorem mmB_apply {φ₁ φ₂ : FTy} (lhs : FVec Ideal S8192x256 φ₁) (rhs : FVec Ideal S8192x128 φ₂) (a : Fin 256) (b : Fin 128) :
    matmul (F := Ideal) dot_S8192x256_S8192x128_S256x128_0_0_1_1_n_n none lhs rhs (constant S256x128 .f32 0x00000000#32) (ix2 a b)
      = ∑ k : Fin 8192, lhs (ix2 k a) * rhs (ix2 k b) := by
  refine (Ideal.matmul_constant_zero_apply dot_S8192x256_S8192x128_S256x128_0_0_1_1_n_n none lhs rhs (ix2 a b)).trans ?_
  rw [← Equiv.sum_comp (contrEquiv1 dot_S8192x256_S8192x128_S256x128_0_0_1_1_n_n 8192 rfl rfl).symm]
  refine Finset.sum_congr rfl fun k _ => ?_
  have hk := contrEquiv1_symm_val dot_S8192x256_S8192x128_S256x128_0_0_1_1_n_n 8192 rfl rfl k
  have el : dot_S8192x256_S8192x128_S256x128_0_0_1_1_n_n.lhsIdx (ix2 a b) ((contrEquiv1 dot_S8192x256_S8192x128_S256x128_0_0_1_1_n_n 8192 rfl rfl).symm k) = ix2 k a := funext fun c => Fin.ext (by
    match c with
    | ⟨0, _⟩ => exact (lhsB_0 _ _).trans hk
    | ⟨1, _⟩ => exact lhsB_1 _ _)
  have er : dot_S8192x256_S8192x128_S256x128_0_0_1_1_n_n.rhsIdx (ix2 a b) ((contrEquiv1 dot_S8192x256_S8192x128_S256x128_0_0_1_1_n_n 8192 rfl rfl).symm k) = ix2 k b := funext fun c => Fin.ext (by
    match c with
    | ⟨0, _⟩ => exact (rhsB_0 _ _).trans hk
    | ⟨1, _⟩ => exact rhsB_1 _ _)
  rw [el, er]

theorem lhsC_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl

theorem lhsC_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q

theorem rhsC_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q

theorem rhsC_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- Entry (a, b) of an 8192 × 256 matrix times a 256 × 128 one, into a zero accumulator: the sum over the 256 shared positions. -/
theorem mmC_apply {φ₁ φ₂ : FTy} (lhs : FVec Ideal S8192x256 φ₁) (rhs : FVec Ideal S256x128 φ₂) (a : Fin 8192) (b : Fin 128) :
    matmul (F := Ideal) dot_S8192x256_S256x128_S8192x128_1_0_0_1_n_n none lhs rhs (constant S8192x128 .f32 0x00000000#32) (ix2 a b)
      = ∑ k : Fin 256, lhs (ix2 a k) * rhs (ix2 k b) := by
  refine (Ideal.matmul_constant_zero_apply dot_S8192x256_S256x128_S8192x128_1_0_0_1_n_n none lhs rhs (ix2 a b)).trans ?_
  rw [← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 a b) ((contrEquiv1 dot_S8192x256_S256x128_S8192x128_1_0_0_1_n_n 256 rfl rfl).symm k) = ix2 a k := funext fun c => Fin.ext (by
    match c with
    | ⟨0, _⟩ => exact lhsC_0 _ _
    | ⟨1, _⟩ => exact (lhsC_1 _ _).trans hk)
  have er : dot_S8192x256_S256x128_S8192x128_1_0_0_1_n_n.rhsIdx (ix2 a b) ((contrEquiv1 dot_S8192x256_S256x128_S8192x128_1_0_0_1_n_n 256 rfl rfl).symm k) = ix2 k b := funext fun c => Fin.ext (by
    match c with
    | ⟨0, _⟩ => exact (rhsC_0 _ _).trans hk
    | ⟨1, _⟩ => exact rhsC_1 _ _)
  rw [el, er]

theorem lhsD_0 (i : S128x128.Idx) (q : dot_S128x8192_S8192x128_S128x128_1_0_0_1_n_n.contr.Idx) :
    (dot_S128x8192_S8192x128_S128x128_1_0_0_1_n_n.lhsIdx i q 0).val = (i 0).val := by
  unfold DotDims.lhsIdx
  rw [dif_neg (show ¬(0 : Fin S128x8192.rank) ∈ dot_S128x8192_S8192x128_S128x128_1_0_0_1_n_n.lhsBatch by decide), dif_pos (show (0 : Fin S128x8192.rank) ∈ dot_S128x8192_S8192x128_S128x128_1_0_0_1_n_n.lhsNonContracting by decide)]
  rfl

theorem lhsD_1 (i : S128x128.Idx) (q : dot_S128x8192_S8192x128_S128x128_1_0_0_1_n_n.contr.Idx) :
    (dot_S128x8192_S8192x128_S128x128_1_0_0_1_n_n.lhsIdx i q 1).val = (q ⟨0, by decide⟩).val :=
  dot_S128x8192_S8192x128_S128x128_1_0_0_1_n_n.lhsIdx_val_of_single rfl i q

theorem rhsD_0 (i : S128x128.Idx) (q : dot_S128x8192_S8192x128_S128x128_1_0_0_1_n_n.contr.Idx) :
    (dot_S128x8192_S8192x128_S128x128_1_0_0_1_n_n.rhsIdx i q 0).val = (q ⟨0, by decide⟩).val :=
  dot_S128x8192_S8192x128_S128x128_1_0_0_1_n_n.rhsIdx_val_of_single rfl i q

theorem rhsD_1 (i : S128x128.Idx) (q : dot_S128x8192_S8192x128_S128x128_1_0_0_1_n_n.contr.Idx) :
    (dot_S128x8192_S8192x128_S128x128_1_0_0_1_n_n.rhsIdx i q 1).val = (i 1).val := by
  unfold DotDims.rhsIdx
  rw [dif_neg (show ¬(1 : Fin S8192x128.rank) ∈ dot_S128x8192_S8192x128_S128x128_1_0_0_1_n_n.rhsBatch by decide), dif_pos (show (1 : Fin S8192x128.rank) ∈ dot_S128x8192_S8192x128_S128x128_1_0_0_1_n_n.rhsNonContracting by decide)]
  rfl

/-- Entry (a, b) of a 128 × 8192 matrix times an 8192 × 128 one, into a zero accumulator: the sum over the 8192 shared positions. -/
theorem mmD_apply {φ₁ φ₂ : FTy} (lhs : FVec Ideal S128x8192 φ₁) (rhs : FVec Ideal S8192x128 φ₂) (a : Fin 128) (b : Fin 128) :
    matmul (F := Ideal) dot_S128x8192_S8192x128_S128x128_1_0_0_1_n_n none lhs rhs (constant S128x128 .f32 0x00000000#32) (ix2 a b)
      = ∑ k : Fin 8192, lhs (ix2 a k) * rhs (ix2 k b) := by
  refine (Ideal.matmul_constant_zero_apply dot_S128x8192_S8192x128_S128x128_1_0_0_1_n_n none lhs rhs (ix2 a b)).trans ?_
  rw [← Equiv.sum_comp (contrEquiv1 dot_S128x8192_S8192x128_S128x128_1_0_0_1_n_n 8192 rfl rfl).symm]
  refine Finset.sum_congr rfl fun k _ => ?_
  have hk := contrEquiv1_symm_val dot_S128x8192_S8192x128_S128x128_1_0_0_1_n_n 8192 rfl rfl k
  have el : dot_S128x8192_S8192x128_S128x128_1_0_0_1_n_n.lhsIdx (ix2 a b) ((contrEquiv1 dot_S128x8192_S8192x128_S128x128_1_0_0_1_n_n 8192 rfl rfl).symm k) = ix2 a k := funext fun c => Fin.ext (by
    match c with
    | ⟨0, _⟩ => exact lhsD_0 _ _
    | ⟨1, _⟩ => exact (lhsD_1 _ _).trans hk)
  have er : dot_S128x8192_S8192x128_S128x128_1_0_0_1_n_n.rhsIdx (ix2 a b) ((contrEquiv1 dot_S128x8192_S8192x128_S128x128_1_0_0_1_n_n 8192 rfl rfl).symm k) = ix2 k b := funext fun c => Fin.ext (by
    match c with
    | ⟨0, _⟩ => exact (rhsD_0 _ _).trans hk
    | ⟨1, _⟩ => exact rhsD_1 _ _)
  rw [el, er]

theorem lhsE_0 (i : S8192x128.Idx) (q : dot_S128x8192_S128x128_S8192x128_0_0_1_1_n_n.contr.Idx) :
    (dot_S128x8192_S128x128_S8192x128_0_0_1_1_n_n.lhsIdx i q 0).val = (q ⟨0, by decide⟩).val :=
  dot_S128x8192_S128x128_S8192x128_0_0_1_1_n_n.lhsIdx_val_of_single rfl i q

theorem lhsE_1 (i : S8192x128.Idx) (q : dot_S128x8192_S128x128_S8192x128_0_0_1_1_n_n.contr.Idx) :
    (dot_S128x8192_S128x128_S8192x128_0_0_1_1_n_n.lhsIdx i q 1).val = (i 0).val := by
  unfold DotDims.lhsIdx
  rw [dif_neg (show ¬(1 : Fin S128x8192.rank) ∈ dot_S128x8192_S128x128_S8192x128_0_0_1_1_n_n.lhsBatch by decide), dif_pos (show (1 : Fin S128x8192.rank) ∈ dot_S128x8192_S128x128_S8192x128_0_0_1_1_n_n.lhsNonContracting by decide)]
  rfl

theorem rhsE_0 (i : S8192x128.Idx) (q : dot_S128x8192_S128x128_S8192x128_0_0_1_1_n_n.contr.Idx) :
    (dot_S128x8192_S128x128_S8192x128_0_0_1_1_n_n.rhsIdx i q 0).val = (q ⟨0, by decide⟩).val :=
  dot_S128x8192_S128x128_S8192x128_0_0_1_1_n_n.rhsIdx_val_of_single rfl i q

theorem rhsE_1 (i : S8192x128.Idx) (q : dot_S128x8192_S128x128_S8192x128_0_0_1_1_n_n.contr.Idx) :
    (dot_S128x8192_S128x128_S8192x128_0_0_1_1_n_n.rhsIdx i q 1).val = (i 1).val := by
  unfold DotDims.rhsIdx
  rw [dif_neg (show ¬(1 : Fin S128x128.rank) ∈ dot_S128x8192_S128x128_S8192x128_0_0_1_1_n_n.rhsBatch by decide), dif_pos (show (1 : Fin S128x128.rank) ∈ dot_S128x8192_S128x128_S8192x128_0_0_1_1_n_n.rhsNonContracting by decide)]
  rfl

/-- Entry (a, b) of the transpose of a 128 × 8192 matrix times a 128 × 128 one, into a zero accumulator: the sum over the 128 shared rows. -/
theorem mmE_apply {φ₁ φ₂ : FTy} (lhs : FVec Ideal S128x8192 φ₁) (rhs : FVec Ideal S128x128 φ₂) (a : Fin 8192) (b : Fin 128) :
    matmul (F := Ideal) dot_S128x8192_S128x128_S8192x128_0_0_1_1_n_n none lhs rhs (constant S8192x128 .f32 0x00000000#32) (ix2 a b)
      = ∑ k : Fin 128, lhs (ix2 k a) * rhs (ix2 k b) := by
  refine (Ideal.matmul_constant_zero_apply dot_S128x8192_S128x128_S8192x128_0_0_1_1_n_n none lhs rhs (ix2 a b)).trans ?_
  rw [← Equiv.sum_comp (contrEquiv1 dot_S128x8192_S128x128_S8192x128_0_0_1_1_n_n 128 rfl rfl).symm]
  refine Finset.sum_congr rfl fun k _ => ?_
  have hk := contrEquiv1_symm_val dot_S128x8192_S128x128_S8192x128_0_0_1_1_n_n 128 rfl rfl k
  have el : dot_S128x8192_S128x128_S8192x128_0_0_1_1_n_n.lhsIdx (ix2 a b) ((contrEquiv1 dot_S128x8192_S128x128_S8192x128_0_0_1_1_n_n 128 rfl rfl).symm k) = ix2 k a := funext fun c => Fin.ext (by
    match c with
    | ⟨0, _⟩ => exact (lhsE_0 _ _).trans hk
    | ⟨1, _⟩ => exact lhsE_1 _ _)
  have er : dot_S128x8192_S128x128_S8192x128_0_0_1_1_n_n.rhsIdx (ix2 a b) ((contrEquiv1 dot_S128x8192_S128x128_S8192x128_0_0_1_1_n_n 128 rfl rfl).symm k) = ix2 k b := funext fun c => Fin.ext (by
    match c with
    | ⟨0, _⟩ => exact (rhsE_0 _ _).trans hk
    | ⟨1, _⟩ => exact rhsE_1 _ _)
  rw [el, er]

/-! ## The payloads -/

/-- The first kept product (stored in the first scratch buffer) at entry (e, f). -/
theorem pay2_apply (x : Vec Ideal S8192x128 .f32) (w : Vec Ideal S128x128 .f32) (e : Fin 8192) (f : Fin 128) :
    k0_pay2 (F := Ideal) x w (ix2 e f) = Layer.small x w e f := by
  unfold k0_pay2 k0_pay1
  rw [shapeCast_self, truncf_apply]
  refine (mmA_apply _ _ e f).trans ?_
  rfl

/-- The second kept product (stored in the second scratch buffer) at entry (e, f). -/
theorem pay3_apply (x : Vec Ideal S8192x128 .f32) (w : Vec Ideal S128x128 .f32) (e : Fin 8192) (f : Fin 128) :
    k0_pay3 (F := Ideal) x w (ix2 e f) = Layer.small x w e f := by
  unfold k0_pay3 k0_pay1
  rw [shapeCast_self, truncf_apply]
  refine (mmA_apply _ _ e f).trans ?_
  rfl

/-- The product that starts the accumulator, at entry (e, f). -/
theorem pay4_apply (x : Vec Ideal S8192x128 .f32) (w : Vec Ideal S128x128 .f32) (e : Fin 8192) (f : Fin 128) :
    k0_pay4 (F := Ideal) x w (ix2 e f) = Layer.small x w e f := by
  unfold k0_pay4 k0_pay1
  refine (mmA_apply _ _ e f).trans ?_
  rfl

/-- A column block of the triangle incidence matrix, applied transposed and then straight to a kept product. -/
theorem pay5_apply (b2 : Vec Ideal S8192x256 .f32) (s : Vec Ideal S8192x128 .bf16) (e : Fin 8192) (f : Fin 128) :
    k0_pay5 (F := Ideal) b2 s (ix2 e f)
      = ∑ j : Fin 256, b2 (ix2 e j) * ∑ e' : Fin 8192, b2 (ix2 e' j) * s (ix2 e' f) := by
  unfold k0_pay5
  refine (mmC_apply _ _ e f).trans ?_
  refine Finset.sum_congr rfl fun j _ => ?_
  simp only [truncf_apply]
  rw [mmB_apply]
  rfl

/-- A row block of the node incidence matrix, applied straight and then transposed to a kept product. -/
theorem pay6_apply (b1 : Vec Ideal S128x8192 .f32) (s : Vec Ideal S8192x128 .bf16) (e : Fin 8192) (f : Fin 128) :
    k0_pay6 (F := Ideal) b1 s (ix2 e f)
      = ∑ i : Fin 128, b1 (ix2 i e) * ∑ e' : Fin 8192, b1 (ix2 i e') * s (ix2 e' f) := by
  unfold k0_pay6
  refine (mmE_apply _ _ e f).trans ?_
  refine Finset.sum_congr rfl fun i _ => ?_
  simp only [truncf_apply]
  rw [mmD_apply]
  rfl

/-- The accumulating store's value: the accumulator plus the point's two block products. -/
theorem pay7_apply (b2 : Vec Ideal S8192x256 .f32) (s1 : Vec Ideal S8192x128 .bf16) (b1 : Vec Ideal S128x8192 .f32)
    (s0 : Vec Ideal S8192x128 .bf16) (acc : Vec Ideal S8192x128 .f32) (i : S8192x128.Idx) :
    k0_pay7 (F := Ideal) b2 s1 b1 s0 acc i = acc i + (k0_pay5 (F := Ideal) b2 s1 i + k0_pay6 (F := Ideal) b1 s0 i) := by
  unfold k0_pay7
  rw [shapeCast_self]
  rfl

/-- The last store's value: the same, with the negative part cut off. -/
theorem pay8_apply (b2 : Vec Ideal S8192x256 .f32) (s1 : Vec Ideal S8192x128 .bf16) (b1 : Vec Ideal S128x8192 .f32)
    (s0 : Vec Ideal S8192x128 .bf16) (acc : Vec Ideal S8192x128 .f32) (i : S8192x128.Idx) :
    k0_pay8 (F := Ideal) b2 s1 b1 s0 acc i
      = max (acc i + (k0_pay5 (F := Ideal) b2 s1 i + k0_pay6 (F := Ideal) b1 s0 i)) 0 := by
  unfold k0_pay8
  rw [shapeCast_self]
  show max (acc i + (k0_pay5 (F := Ideal) b2 s1 i + k0_pay6 (F := Ideal) b1 s0 i)) (Ideal.ofBits .f32 0x00000000#32) = _
  rw [Ideal.ofBits_zero_f32]

end Cert.KernelIdeal.KPay

end
-- ==== Proof.KValue.lean ====
/-
  The kernel's result, read entry by entry at the exact instance.

  The two kept products are `x · W0` and `x · W2`; the accumulator starts at `x · W1`; grid point `t` adds the shares of
  its 256 triangles and its 128 nodes; after the last point the negative part is cut off. So entry (e, f) of the result
  array is the layer there, summed sixteen blocks at a time — which is the layer as the reference sums it.
-/
import proofs.«167357_g1760936591461_cont_8to1_843_7_alg».proof.Proof.Final
import proofs.«167357_g1760936591461_cont_8to1_843_7_alg».proof.Proof.KPay

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Body SumBlocks Finset

variable (m : (ℓ : Loc nD τ sig) → Buf (Elt Ideal) ℓ)

/-! ## The argument arrays, as matrices of extended reals -/

abbrev aX (c : Dev nD) : Layer.Arr 8192 128 := m ((c : Thread nD τ).loc main_arg0)
abbrev aB1 (c : Dev nD) : Layer.Arr 2048 8192 := m ((c : Thread nD τ).loc main_arg1)
abbrev aB2 (c : Dev nD) : Layer.Arr 8192 4096 := m ((c : Thread nD τ).loc main_arg2)
abbrev aW0 (c : Dev nD) : Layer.Arr 128 128 := m ((c : Thread nD τ).loc main_arg3)
abbrev aW1 (c : Dev nD) : Layer.Arr 128 128 := m ((c : Thread nD τ).loc main_arg4)
abbrev aW2 (c : Dev nD) : Layer.Arr 128 128 := m ((c : Thread nD τ).loc main_arg5)

/-! ## What is kept, what starts the accumulator, what a point adds -/

theorem keep0_apply (c : Dev nD) (e : Fin 8192) (f : Fin 128) :
    keep0 (F := Ideal) m c (ix2 e f) = Layer.small (aX m c) (aW0 m c) e f := by
  unfold keep0; rw [KPay.pay2_apply, xB_eq, w0B_eq]

theorem keep1_apply (c : Dev nD) (e : Fin 8192) (f : Fin 128) :
    keep1 (F := Ideal) m c (ix2 e f) = Layer.small (aX m c) (aW2 m c) e f := by
  unfold keep1; rw [KPay.pay3_apply, xB_eq, w2B_eq]

theorem start_apply (c : Dev nD) (t : Fin cfg0.N) (e : Fin 8192) (f : Fin 128) :
    k0_pay4 (F := Ideal) (xB m c t) (w1B m c t) (ix2 e f) = Layer.small (aX m c) (aW1 m c) e f := by
  rw [KPay.pay4_apply, xB_eq, w1B_eq]

/-- Point `t`'s two block products at entry (e, f) are its triangles' and its nodes' shares. -/
theorem step_apply (c : Dev nD) (t : Fin cfg0.N) (e : Fin 8192) (f : Fin 128) :
    k0_pay5 (F := Ideal) (b2B m c t) (keep1 m c) (ix2 e f) + k0_pay6 (F := Ideal) (b1B m c t) (keep0 m c) (ix2 e f)
      = Layer.step (aX m c) (aB1 m c) (aB2 m c) (aW0 m c) (aW2 m c) e f ⟨t.val, lt_of_lt_of_eq t.isLt N_0⟩ := by
  rw [KPay.pay5_apply, KPay.pay6_apply]
  unfold Layer.step Layer.upTerm Layer.loTerm
  congr 1
  · refine Finset.sum_congr rfl fun j _ => ?_
    rw [b2B_apply]
    congr 1
    refine Finset.sum_congr rfl fun e' _ => ?_
    rw [b2B_apply, keep1_apply]
  · refine Finset.sum_congr rfl fun i _ => ?_
    rw [b1B_apply]
    congr 1
    refine Finset.sum_congr rfl fun e' _ => ?_
    rw [b1B_apply, keep0_apply]

/-! ## The accumulator, point by point -/

/-- Before the last point the accumulator at entry (e, f) is `x · W1` plus the additions of the points so far. -/
theorem accAt_apply (c : Dev nD) (e : Fin 8192) (f : Fin 128) :
    ∀ (n : ℕ) (h : n < cfg0.N), n < 15 →
      accAt (F := Ideal) m c n h (ix2 e f)
        = Layer.accum (aX m c) (aB1 m c) (aB2 m c) (aW0 m c) (aW1 m c) (aW2 m c) e f n
  | 0, h, _ => by
    rw [accAt_first m c ⟨0, h⟩ rfl, KPay.pay7_apply, start_apply, step_apply]
    unfold Layer.accum
    rw [dif_pos (by decide)]
  | n + 1, h, h15 => by
    rw [accAt_mid m c ⟨n + 1, h⟩ (Nat.succ_ne_zero n) h15, KPay.pay7_apply, step_apply]
    show accAt (F := Ideal) m c n _ (ix2 e f) + _ = _
    rw [accAt_apply c e f n _ (by omega)]
    conv_rhs => unfold Layer.accum
    rw [dif_pos (by omega)]

/-- Entry (e, f) of the result array: the layer, summed as the kernel sums it. -/
theorem result_apply (c : Dev nD) (e : Fin 8192) (f : Fin 128) :
    result (F := Ideal) m c (ix2 e f)
      = Layer.layerK (aX m c) (aB1 m c) (aB2 m c) (aW0 m c) (aW1 m c) (aW2 m c) e f := by
  have hN : cfg0.N = 16 := N_0
  have h15 : (15 : ℕ) < cfg0.N := by rw [hN]; decide
  show accAt (F := Ideal) m c 15 h15 (ix2 e f) = _
  rw [accAt_last m c ⟨15, h15⟩ (Nat.succ_ne_zero 14) (Nat.lt_irrefl 15), KPay.pay8_apply, step_apply]
  show max (accAt (F := Ideal) m c 14 _ (ix2 e f) + _) 0 = _
  rw [accAt_apply m c e f 14 _ (by decide)]
  unfold Layer.layerK
  conv_rhs => unfold Layer.accum
  rw [dif_pos (by decide)]

/-- The result array is the layer, entry by entry. -/
theorem result_eq (c : Dev nD) :
    result (F := Ideal) m c
      = fun i => Layer.layer (aX m c) (aB1 m c) (aB2 m c) (aW0 m c) (aW1 m c) (aW2 m c) (i 0) (i 1) := by
  funext i
  obtain ⟨e, f, rfl⟩ : ∃ (e : Fin 8192) (f : Fin 128), i = ix2 e f := ⟨i 0, i 1, eq_ix2 i⟩
  rw [result_apply, Layer.layerK_eq_layer]
  rfl

end Cert.KernelIdeal.KValue

end
-- ==== Proof.RefValue.lean ====
/-
  The reference's result, read entry by entry at the exact instance: three small products of the edge features with
  the weight matrices, each of the two incidence matrices applied transposed and then straight (or straight and then
  transposed), the three terms added and the negative part cut off.
-/
import proofs.«167357_g1760936591461_cont_8to1_843_7_alg».proof.Proof.Gen.ReferenceIdeal.Read
import proofs.«167357_g1760936591461_cont_8to1_843_7_alg».proof.Proof.Layer
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Finset

/-- The left index of the small products at entry (e, f) and contraction coordinate k is (e, k). -/
theorem lidx1 (e : Fin 8192) (f k : Fin 128) : lidx_main_v1 (ix2 e f) k = ix2 e k := by
  funext a; match a with | ⟨0, _⟩ => rfl | ⟨1, _⟩ => rfl
/-- The right index of the small products at entry (e, f) and contraction coordinate k is (k, f). -/
theorem ridx1 (e : Fin 8192) (f k : Fin 128) : ridx_main_v1 (ix2 e f) k = ix2 k f := by
  funext a; match a with | ⟨0, _⟩ => rfl | ⟨1, _⟩ => rfl
theorem lidx4 (e : Fin 8192) (f k : Fin 128) : lidx_main_v4 (ix2 e f) k = ix2 e k := by
  funext a; match a with | ⟨0, _⟩ => rfl | ⟨1, _⟩ => rfl
theorem ridx4 (e : Fin 8192) (f k : Fin 128) : ridx_main_v4 (ix2 e f) k = ix2 k f := by
  funext a; match a with | ⟨0, _⟩ => rfl | ⟨1, _⟩ => rfl
theorem lidx6 (e : Fin 8192) (f k : Fin 128) : lidx_main_v6 (ix2 e f) k = ix2 e k := by
  funext a; match a with | ⟨0, _⟩ => rfl | ⟨1, _⟩ => rfl
theorem ridx6 (e : Fin 8192) (f k : Fin 128) : ridx_main_v6 (ix2 e f) k = ix2 k f := by
  funext a; match a with | ⟨0, _⟩ => rfl | ⟨1, _⟩ => rfl
/-- The transposed triangle incidence matrix at (t, e') is the matrix at (e', t). -/
theorem idx0 (t : Fin 4096) (e' : Fin 8192) : idx_main_v0 (ix2 t e') = ix2 e' t := by
  funext a; match a with | ⟨0, _⟩ => rfl | ⟨1, _⟩ => rfl
theorem lidx2 (t : Fin 4096) (f : Fin 128) (e' : Fin 8192) : lidx_main_v2 (ix2 t f) e' = ix2 t e' := by
  funext a; match a with | ⟨0, _⟩ => rfl | ⟨1, _⟩ => rfl
theorem ridx2 (t : Fin 4096) (f : Fin 128) (e' : Fin 8192) : ridx_main_v2 (ix2 t f) e' = ix2 e' f := by
  funext a; match a with | ⟨0, _⟩ => rfl | ⟨1, _⟩ => rfl
theorem lidx3 (e : Fin 8192) (f : Fin 128) (t : Fin 4096) : lidx_main_v3 (ix2 e f) t = ix2 e t := by
  funext a; match a with | ⟨0, _⟩ => rfl | ⟨1, _⟩ => rfl
theorem ridx3 (e : Fin 8192) (f : Fin 128) (t : Fin 4096) : ridx_main_v3 (ix2 e f) t = ix2 t f := by
  funext a; match a with | ⟨0, _⟩ => rfl | ⟨1, _⟩ => rfl
/-- The transposed node incidence matrix at (e, n) is the matrix at (n, e). -/
theorem idx5 (e : Fin 8192) (n : Fin 2048) : idx_main_v5 (ix2 e n) = ix2 n e := by
  funext a; match a with | ⟨0, _⟩ => rfl | ⟨1, _⟩ => rfl
theorem lidx7 (n : Fin 2048) (f : Fin 128) (e' : Fin 8192) : lidx_main_v7 (ix2 n f) e' = ix2 n e' := by
  funext a; match a with | ⟨0, _⟩ => rfl | ⟨1, _⟩ => rfl
theorem ridx7 (n : Fin 2048) (f : Fin 128) (e' : Fin 8192) : ridx_main_v7 (ix2 n f) e' = ix2 e' f := by
  funext a; match a with | ⟨0, _⟩ => rfl | ⟨1, _⟩ => rfl
theorem lidx8 (e : Fin 8192) (f : Fin 128) (n : Fin 2048) : lidx_main_v8 (ix2 e f) n = ix2 e n := by
  funext a; match a with | ⟨0, _⟩ => rfl | ⟨1, _⟩ => rfl
theorem ridx8 (e : Fin 8192) (f : Fin 128) (n : Fin 2048) : ridx_main_v8 (ix2 e f) n = ix2 n f := by
  funext a; match a with | ⟨0, _⟩ => rfl | ⟨1, _⟩ => rfl

/-- Entry (e, f) of the product of the edge features with the third weight matrix. -/
theorem v1_at (x0 : Vec Ideal S8192x128 .f32) (x5 : Vec Ideal S128x128 .f32) (e : Fin 8192) (f : Fin 128) :
    val_main_v1 (F := Ideal) x0 x5 (ix2 e f) = Layer.small x0 x5 e f := by
  rw [val_main_v1_apply]
  unfold Layer.small
  exact Finset.sum_congr rfl fun k _ => by rw [lidx1, ridx1]

/-- Entry (e, f) of the product of the edge features with the second weight matrix. -/
theorem v4_at (x0 : Vec Ideal S8192x128 .f32) (x4 : Vec Ideal S128x128 .f32) (e : Fin 8192) (f : Fin 128) :
    val_main_v4 (F := Ideal) x0 x4 (ix2 e f) = Layer.small x0 x4 e f := by
  rw [val_main_v4_apply]
  unfold Layer.small
  exact Finset.sum_congr rfl fun k _ => by rw [lidx4, ridx4]

/-- Entry (e, f) of the product of the edge features with the first weight matrix. -/
theorem v6_at (x0 : Vec Ideal S8192x128 .f32) (x3 : Vec Ideal S128x128 .f32) (e : Fin 8192) (f : Fin 128) :
    val_main_v6 (F := Ideal) x0 x3 (ix2 e f) = Layer.small x0 x3 e f := by
  rw [val_main_v6_apply]
  unfold Layer.small
  exact Finset.sum_congr rfl fun k _ => by rw [lidx6, ridx6]

/-- Entry (e, f) of the triangle term is the sum of the triangles' shares. -/
theorem v3_at (x0 : Vec Ideal S8192x128 .f32) (x2 : Vec Ideal S8192x4096 .f32) (x5 : Vec Ideal S128x128 .f32)
    (e : Fin 8192) (f : Fin 128) :
    val_main_v3 (F := Ideal) x0 x2 x5 (ix2 e f) = ∑ t : Fin 4096, Layer.upTerm x2 (Layer.small x0 x5) e f t := by
  rw [val_main_v3_apply]
  refine Finset.sum_congr rfl fun t _ => ?_
  rw [lidx3, ridx3, val_main_v2_apply]
  unfold Layer.upTerm
  congr 1
  refine Finset.sum_congr rfl fun e' _ => ?_
  rw [lidx2, ridx2, val_main_v0_apply, idx0, v1_at]

/-- Entry (e, f) of the node term is the sum of the nodes' shares. -/
theorem v8_at (x0 : Vec Ideal S8192x128 .f32) (x1 : Vec Ideal S2048x8192 .f32) (x3 : Vec Ideal S128x128 .f32)
    (e : Fin 8192) (f : Fin 128) :
    val_main_v8 (F := Ideal) x0 x1 x3 (ix2 e f) = ∑ n : Fin 2048, Layer.loTerm x1 (Layer.small x0 x3) e f n := by
  rw [val_main_v8_apply]
  refine Finset.sum_congr rfl fun n _ => ?_
  rw [lidx8, ridx8, val_main_v5_apply, idx5, val_main_v7_apply]
  unfold Layer.loTerm
  congr 1
  refine Finset.sum_congr rfl fun e' _ => ?_
  rw [lidx7, ridx7, v6_at]

/-- Entry (e, f) of the reference's result is the layer there. -/
theorem ref_apply (x0 : Vec Ideal S8192x128 .f32) (x1 : Vec Ideal S2048x8192 .f32) (x2 : Vec Ideal S8192x4096 .f32)
    (x3 x4 x5 : Vec Ideal S128x128 .f32) (e : Fin 8192) (f : Fin 128) :
    val_main_v11 (F := Ideal) x0 x1 x2 x3 x4 x5 (ix2 e f) = Layer.layer x0 x1 x2 x3 x4 x5 e f := by
  rw [val_main_v11_apply, val_main_v10_apply, val_main_v9_apply, v3_at, v4_at, v8_at,
    val_main_call0_v0_apply, val_main_call0_cst_apply]
  unfold Layer.layer
  rw [Ideal.maximumf_def, Ideal.addf_def, Ideal.addf_def]
  show max _ (Ideal.ofBits .f32 0x00000000#32) = _
  rw [Ideal.ofBits_zero_f32]

end Cert.ReferenceIdeal.RefValue

end
-- ==== Proof.lean ====
/-
  A simplicial-complex layer on edge features, as one blocked kernel against the plain formula.

  With `x` the edge features (8192 × 128), `B1` the node incidence matrix (2048 × 8192), `B2` the triangle incidence
  matrix (8192 × 4096) and three weight matrices `W0`, `W1`, `W2` (128 × 128), the reference computes

      max (B2 · (B2ᵀ · (x · W2)) + x · W1 + B1ᵀ · (B1 · (x · W0))) 0

  with whole matrix products. The kernel walks sixteen grid points: the first forms the three small products, keeping
  `x · W0` and `x · W2` in scratch (rounded to a narrow format) and starting an accumulator at `x · W1`; every point takes
  256 columns of `B2` and 128 rows of `B1`, applies each block transposed and then straight (or straight and then
  transposed) to the matching kept product, and adds the two results to the accumulator; the last point cuts the
  negative part off. On the extended reals a change of float format is the identity and a matrix product is the plain
  sum of products, so entry (e, f) of the kernel's result is the same sum as the reference's with the 4096 triangles
  taken sixteen blocks of 256 at a time and the 2048 nodes sixteen blocks of 128 at a time: equal by commutativity and
  associativity of addition alone, which hold on the extended reals without exception. Nothing here needs the inputs
  to be finite, and the precondition is never opened.

  The two kernel programs run because the body does at every point, whichever way its three conditionals go there,
  and the pipeline's proof data names what the accumulator holds after each point; the reference's run is read off its
  operations one by one.
-/
import proofs.«167357_g1760936591461_cont_8to1_843_7_alg».proof.Defs
import proofs.«167357_g1760936591461_cont_8to1_843_7_alg».proof.Proof.Gen.Kernel
import proofs.«167357_g1760936591461_cont_8to1_843_7_alg».proof.Proof.Gen.KernelIdeal
import proofs.«167357_g1760936591461_cont_8to1_843_7_alg».proof.Proof.Gen.ReferenceIdeal
import proofs.«167357_g1760936591461_cont_8to1_843_7_alg».proof.Proof.Gen.Pre_finite_inputs
import proofs.«167357_g1760936591461_cont_8to1_843_7_alg».proof.Proof.AccumBits
import proofs.«167357_g1760936591461_cont_8to1_843_7_alg».proof.Proof.KValue
import proofs.«167357_g1760936591461_cont_8to1_843_7_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and leaves its arguments alone. -/
theorem frame_kernel : Cert.frame_Kernel := fun m ρ _ => Cert.Kernel.Body.frame (F := Bits) m ρ

/-- So does its reading over the extended reals. -/
theorem frame_kernelIdeal : Cert.frame_KernelIdeal := fun m ρ _ => Cert.KernelIdeal.Body.frame (F := Ideal) m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the kernel over the extended reals is the kernel's own text. -/
theorem preserves : Cert.preserves_Kernel_KernelIdeal := trivial

/-- From memories that agree on the six arguments the kernel's result array and the reference's hold, entry by entry,
    the same extended real: the layer at that entry. -/
theorem algebraic : Cert.algebraic_KernelIdeal_ReferenceIdeal := by
  intro m ρ m' ρ' _ hagree
  refine ⟨fun c => Cert.KernelIdeal.Body.result (F := Ideal) m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2.1, (hagree c).2.2.2.2.2]
  show _ = Cert.KernelIdeal.Body.result (F := Ideal) m c
  rw [Cert.KernelIdeal.KValue.result_eq]
  funext i
  obtain ⟨e, f, rfl⟩ : ∃ (e : Fin 8192) (f : Fin 128), i = ix2 e f := ⟨i 0, i 1, eq_ix2 i⟩
  exact Cert.ReferenceIdeal.RefValue.ref_apply _ _ _ _ _ _ e f

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
